-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S2x1000 : Shape := ⟨2, ![2, 1000]⟩
abbrev S1000x128 : Shape := ⟨2, ![1000, 128]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part3 {F : FTy → Type} [FloatOps F] (main_arg3 : IVec S500000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S500000 32 := broadcastInDim S500000 ![] bcast_S_S500000 main_c_20
  let main_v55 : IVec S500000 1 := cmpi .sge main_arg3 main_v54
  let main_c_21 : IVec S_ 32 := constantI S_ 32 10000#32
  let main_v56 : IVec S500000 32 := broadcastInDim S500000 ![] bcast_S_S500000 main_c_21
  let main_v57 : IVec S500000 1 := cmpi .slt main_arg3 main_v56
  let main_v58 : IVec S500000 1 := andi main_v55 main_v57
  let main_c_22 : IVec S_ 1 := constantI S_ 1 1#1
  let main_v59 : IVec S_ 1 := (fun x v => Host.reduce IntOp.andi x v reducesTo_S500000_S_d0 h_S_) main_v58 main_c_22
  let main_v60 : IVec S_ 1 := andi main_v53 main_v59
  main_v60

def fn_part2 {F : FTy → Type} [FloatOps F] (main_arg3 : IVec S500000 32) (main_arg9 : FVec F S128 .f32) (main_arg10 : FVec F S128 .f32) (main_arg11 : FVec F S128x128 .f32) (main_arg12 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg3 main_v48 main_v49 main_v50

def fn_part1 {F : FTy → Type} [FloatOps F] (main_arg3 : IVec S500000 32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg9 main_arg10 main_arg11 main_arg12 main_v33

def fn {F : FTy → Type} [FloatOps F] (main_arg0 : FVec F S500000x128 .f32) (main_arg1 : IVec S2x1000 32) (main_arg2 : FVec F S1000x128 .f32) (main_arg3 : IVec S500000 32) (main_arg4 : FVec F S128x128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg3 main_arg6 main_arg7 main_arg8 main_arg9 main_arg10 main_arg11 main_arg12 main_v13 main_v16
-- ==== Kernel.lean ====
abbrev S500000x128 : Shape := ⟨2, ![500000, 128]⟩
abbrev S2x1000 : Shape := ⟨2, ![2, 1000]⟩
abbrev S1000x128 : Shape := ⟨2, ![1000, 128]⟩
abbrev S500000 : Shape := ⟨1, ![500000]⟩
abbrev S128x128 : Shape := ⟨2, ![128, 128]⟩
abbrev S128 : Shape := ⟨1, ![128]⟩
abbrev S_ : Shape := ⟨0, ![]⟩
abbrev S10000x128 : Shape := ⟨2, ![10000, 128]⟩
abbrev S500000x1 : Shape := ⟨2, ![500000, 1]⟩
abbrev S1x128 : Shape := ⟨2, ![1, 128]⟩
abbrev S1 : Shape := ⟨1, ![1]⟩
abbrev S1x1 : Shape := ⟨2, ![1, 1]⟩
abbrev S5000x128 : Shape := ⟨2, ![5000, 128]⟩

abbrev nBuf : Space → Nat
  | .hbm => 63
  | .vmem => 23
  | .smem => 0
  | _ => 0

abbrev bufTy : (tb : Table) → Fin (tcTables nBuf tb) → BufTy
  | .hbm, ⟨0, _⟩ => ⟨S500000x128, .f32⟩
  | .hbm, ⟨1, _⟩ => ⟨S2x1000, .i32⟩
  | .hbm, ⟨2, _⟩ => ⟨S1000x128, .f32⟩
  | .hbm, ⟨3, _⟩ => ⟨S500000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S_, .f32⟩
  | .hbm, ⟨14, _⟩ => ⟨S10000x128, .f32⟩
  | .hbm, ⟨15, _⟩ => ⟨S500000x1, .i32⟩
  | .hbm, ⟨16, _⟩ => ⟨S10000x128, .f32⟩
  | .hbm, ⟨17, _⟩ => ⟨S10000x128, .f32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S1, .i32⟩
  | .hbm, ⟨27, _⟩ => ⟨S_, .i32⟩
  | .hbm, ⟨28, _⟩ => ⟨S500000x1, .i32⟩
  | .hbm, ⟨29, _⟩ => ⟨S500000x1, .i1⟩
  | .hbm, ⟨30, _⟩ => ⟨S1x1, .i32⟩
  | .hbm, ⟨31, _⟩ => ⟨S500000x1, .i32⟩
  | .hbm, ⟨32, _⟩ => ⟨S500000x1, .i1⟩
  | .hbm, ⟨33, _⟩ => ⟨S500000x1, .i1⟩
  | .hbm, ⟨34, _⟩ => ⟨S_, .i1⟩
  | .hbm, ⟨35, _⟩ => ⟨S500000, .i1⟩
  | .hbm, ⟨36, _⟩ => ⟨S500000x128, .f32⟩
  | .hbm, ⟨37, _⟩ => ⟨S500000x128, .i1⟩
  | .hbm, ⟨38, _⟩ => ⟨S_, .f32⟩
  | .hbm, ⟨39, _⟩ => ⟨S500000x128, .f32⟩
  | .hbm, ⟨40, _⟩ => ⟨S500000x128, .f32⟩
  | .hbm, ⟨41, _⟩ => ⟨S500000x128, .f32⟩
  | .hbm, ⟨42, _⟩ => ⟨S1x128, .f32⟩
  | .hbm, ⟨43, _⟩ => ⟨S1x128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S500000x128, .f32⟩
  | .local _ .vmem, ⟨0, _⟩ => ⟨S10000x128, .f32⟩
  | .local _ .vmem, ⟨1, _⟩ => ⟨S128x128, .f32⟩
  | .local _ .vmem, ⟨2, _⟩ => ⟨S128, .f32⟩
  | .local _ .vmem, ⟨3, _⟩ => ⟨S128, .f32⟩
  | .local _ .vmem, ⟨4, _⟩ => ⟨S10000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S128, .f32⟩
  | .local _ .vmem, ⟨19, _⟩ => ⟨S128x128, .f32⟩
  | .local _ .vmem, ⟨20, _⟩ => ⟨S128, .f32⟩
  | .local _ .vmem, ⟨21, _⟩ => ⟨S5000x128, .f32⟩
  | .local _ .vmem, ⟨22, _⟩ => ⟨S5000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_v5_0 : Ref sig .tc := ⟨.hbm, 41, rfl⟩
abbrev main_v5_1 : Ref sig .tc := ⟨.hbm, 42, rfl⟩
abbrev main_v5_2 : Ref sig .tc := ⟨.hbm, 43, rfl⟩
abbrev main_v6 : Ref sig .tc := ⟨.hbm, 44, rfl⟩
abbrev main_cst_0 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_cst_1 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst_2 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg6_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem6_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S10000x128 : S_.BroadcastsInDim S10000x128 (![] : Fin 0 → Fin S10000x128.rank)
  bcast_S500000_S500000x1_0 : S500000.BroadcastsInDim S500000x1 (![0] : Fin 1 → Fin S500000x1.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  reduces_S10000x128_S128 : S10000x128.Reduces [0] S128
  shapeCasts_S128_S1x128 : S128.ShapeCasts S1x128
  broadcasts_S1x128_S10000x128 : S1x128.Broadcasts S10000x128
  inb_S128_S128_0 : ∀ a, (![0] : Fin 1 → Nat) a + S128.size a ≤ S128.size a
  h_S128 : 0 < S128.numel
  bcast_S_S500000 : S_.BroadcastsInDim S500000 (![] : Fin 0 → Fin S500000.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  shapeCasts_S1x128_S1x128 : S1x128.ShapeCasts S1x128
  reduces_S5000x128_S128 : S5000x128.Reduces [0] S128
  shapeCasts_S1x128_S128 : S1x128.ShapeCasts S128
  bcast_S_S128 : S_.BroadcastsInDim S128 (![] : Fin 0 → Fin S128.rank)
  shapeCasts_S128_S128 : S128.ShapeCasts S128
  scatter_S10000x128_S500000x1_S500000x128_1_0_0_1_wf : ScatterDims.WF S10000x128 S500000x1 S500000x128 [1] [0] [0] 1
  dot_S10000x128_S128x128_S10000x128_1_0_0_1_n_n_wf : DotDims.WF S10000x128 S128x128 S10000x128 [1] [0] [0] [1] [] []
  gather_S10000x128_S500000x1_S500000x128_1_0_n_n_0_1_1128_wf : GatherDims.WF S10000x128 S500000x1 S500000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S10000x128.size a
  hwx0_4 : ∀ i : grid0.Coords, EltTy.bits .f32 = 32 ∨ (Rect.block (s := S10000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S500000x128.size a
  hwx1_1 : ∀ i : grid1.Coords, EltTy.bits .f32 = 32 ∨ (Rect.block (s := S500000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S500000x128.size a
  hwx1_4 : ∀ i : grid1.Coords, EltTy.bits .f32 = 32 ∨ (Rect.block (s := S500000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S500000x128.size a
  hwx2_5 : ∀ i : grid2.Coords, EltTy.bits .f32 = 32 ∨ (Rect.block (s := S500000x128) S5000x128.size (cc2_transform_5 i) (hinb2_5 i)).WholeWords (EltTy.packing .f32)

variable [Facts₀]

def scatter_S10000x128_S500000x1_S500000x128_1_0_0_1 : ScatterDims S10000x128 S500000x1 S500000x128 where
  updateWindowDims := [1]
  insertedWindowDims := [0]
  scatterDimsToOperandDims := [0]
  indexVectorDim := 1
  wf := scatter_S10000x128_S500000x1_S500000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S500000x1_S500000x128_1_0_n_n_0_1_1128 : GatherDims S10000x128 S500000x1 S500000x128 where
  offsetDims := [1]
  collapsedSliceDims := [0]
  operandBatchingDims := []
  startIndicesBatchingDims := []
  startIndexMap := [0]
  indexVectorDim := 1
  sliceSizes := ![1, 128]
  wf := gather_S10000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v2) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S10000x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v5_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S500000x128 : Shape := ⟨2, ![500000, 128]⟩
abbrev S2x1000 : Shape := ⟨2, ![2, 1000]⟩
abbrev S1000x128 : Shape := ⟨2, ![1000, 128]⟩
abbrev S500000 : Shape := ⟨1, ![500000]⟩
abbrev S128x128 : Shape := ⟨2, ![128, 128]⟩
abbrev S128 : Shape := ⟨1, ![128]⟩
abbrev S_ : Shape := ⟨0, ![]⟩
abbrev S10000x128 : Shape := ⟨2, ![10000, 128]⟩
abbrev S500000x1 : Shape := ⟨2, ![500000, 1]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S2x1000, .i32⟩
  | .hbm, ⟨2, _⟩ => ⟨S1000x128, .f32⟩
  | .hbm, ⟨3, _⟩ => ⟨S500000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S_, .f32⟩
  | .hbm, ⟨14, _⟩ => ⟨S10000x128, .f32⟩
  | .hbm, ⟨15, _⟩ => ⟨S500000x1, .i32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S_, .f32⟩
  | .hbm, ⟨22, _⟩ => ⟨S1x128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S10000x128, .f32⟩
  | .hbm, ⟨34, _⟩ => ⟨S10000x128, .f32⟩
  | .hbm, ⟨35, _⟩ => ⟨S_, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S10000x128, .f32⟩
  | .hbm, ⟨40, _⟩ => ⟨S10000x128, .f32⟩
  | .hbm, ⟨41, _⟩ => ⟨S1x128, .f32⟩
  | .hbm, ⟨42, _⟩ => ⟨S10000x128, .f32⟩
  | .hbm, ⟨43, _⟩ => ⟨S10000x128, .f32⟩
  | .hbm, ⟨44, _⟩ => ⟨S1x128, .f32⟩
  | .hbm, ⟨45, _⟩ => ⟨S10000x128, .f32⟩
  | .hbm, ⟨46, _⟩ => ⟨S10000x128, .f32⟩
  | .hbm, ⟨47, _⟩ => ⟨S_, .f32⟩
  | .hbm, ⟨48, _⟩ => ⟨S10000x128, .f32⟩
  | .hbm, ⟨49, _⟩ => ⟨S10000x128, .f32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S500000x128, .f32⟩
  | .hbm, ⟨59, _⟩ => ⟨S500000x128, .f32⟩
  | .hbm, ⟨60, _⟩ => ⟨S500000x128, .f32⟩
  | .hbm, ⟨61, _⟩ => ⟨S1x128, .f32⟩
  | .hbm, ⟨62, _⟩ => ⟨S500000x128, .f32⟩
  | .hbm, ⟨63, _⟩ => ⟨S500000x128, .f32⟩
  | .hbm, ⟨64, _⟩ => ⟨S_, .f32⟩
  | .hbm, ⟨65, _⟩ => ⟨S128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S500000x128, .f32⟩
  | .hbm, ⟨71, _⟩ => ⟨S500000x128, .f32⟩
  | .hbm, ⟨72, _⟩ => ⟨S500000x128, .f32⟩
  | .hbm, ⟨73, _⟩ => ⟨S_, .f32⟩
  | .hbm, ⟨74, _⟩ => ⟨S128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S500000x128, .f32⟩
  | .hbm, ⟨80, _⟩ => ⟨S500000x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S500000x128, .f32⟩
  | .hbm, ⟨86, _⟩ => ⟨S500000x128, .f32⟩
  | .hbm, ⟨87, _⟩ => ⟨S1x128, .f32⟩
  | .hbm, ⟨88, _⟩ => ⟨S500000x128, .f32⟩
  | .hbm, ⟨89, _⟩ => ⟨S500000x128, .f32⟩
  | .hbm, ⟨90, _⟩ => ⟨S1x128, .f32⟩
  | .hbm, ⟨91, _⟩ => ⟨S500000x128, .f32⟩
  | .hbm, ⟨92, _⟩ => ⟨S500000x128, .f32⟩
  | .hbm, ⟨93, _⟩ => ⟨S_, .f32⟩
  | .hbm, ⟨94, _⟩ => ⟨S500000x128, .f32⟩
  | .hbm, ⟨95, _⟩ => ⟨S500000x128, .f32⟩
  | .hbm, ⟨96, _⟩ => ⟨S500000x128, .f32⟩
  | .hbm, ⟨97, _⟩ => ⟨S1x128, .f32⟩
  | .hbm, ⟨98, _⟩ => ⟨S500000x128, .f32⟩
  | .hbm, ⟨99, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_cst : Ref sig .tc := ⟨.hbm, 47, rfl⟩
abbrev main_call0_v0 : Ref sig .tc := ⟨.hbm, 48, rfl⟩
abbrev main_v28 : Ref sig .tc := ⟨.hbm, 49, rfl⟩
abbrev main_c : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call1_cst : Ref sig .tc := ⟨.hbm, 93, rfl⟩
abbrev main_call1_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S500000_S500000x1_0 : S500000.BroadcastsInDim S500000x1 (![0] : Fin 1 → Fin S500000x1.rank)
  reducesTo_S10000x128_S128_d0 : S10000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S10000x128_0_1 : S1x128.BroadcastsInDim S10000x128 (![0, 1] : Fin 2 → Fin S10000x128.rank)
  bcast_S_S500000 : S_.BroadcastsInDim S500000 (![] : Fin 0 → Fin S500000.rank)
  bcast_S1x128_S500000x128_0_1 : S1x128.BroadcastsInDim S500000x128 (![0, 1] : Fin 2 → Fin S500000x128.rank)
  reducesTo_S500000x128_S128_d0 : S500000x128.ReducesTo [0] S128
  bcast_S_S500000x128 : S_.BroadcastsInDim S500000x128 (![] : Fin 0 → Fin S500000x128.rank)
  scatter_S10000x128_S500000x1_S500000x128_1_0_0_1_wf : ScatterDims.WF S10000x128 S500000x1 S500000x128 [1] [0] [0] 1
  dot_S10000x128_S128x128_S10000x128_1_0_0_1_n_n_wf : DotDims.WF S10000x128 S128x128 S10000x128 [1] [0] [0] [1] [] []
  gather_S10000x128_S500000x1_S500000x128_1_0_n_n_0_1_1128_wf : GatherDims.WF S10000x128 S500000x1 S500000x128 [1] [0] [] [0] [] 1 ![1, 128]
  dot_S500000x128_S128x128_S500000x128_1_0_0_1_n_n_wf : DotDims.WF S500000x128 S128x128 S500000x128 [1] [0] [0] [1] [] []

variable [Facts₀]

def scatter_S10000x128_S500000x1_S500000x128_1_0_0_1 : ScatterDims S10000x128 S500000x1 S500000x128 where
  updateWindowDims := [1]
  insertedWindowDims := [0]
  scatterDimsToOperandDims := [0]
  indexVectorDim := 1
  wf := scatter_S10000x128_S500000x1_S500000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S500000x1_S500000x128_1_0_n_n_0_1_1128 : GatherDims S10000x128 S500000x1 S500000x128 where
  offsetDims := [1]
  collapsedSliceDims := [0]
  operandBatchingDims := []
  startIndicesBatchingDims := []
  startIndexMap := [0]
  indexVectorDim := 1
  sliceSizes := ![1, 128]
  wf := gather_S10000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf

class Facts : Prop extends Facts₀ where

variable [Facts]
-- ==== Proof.Spec.lean ====
/-
  The mathematics of the certificate, on the extended reals and index by index.

  A table P of per-graph sums (10000 graphs, 128 channels) goes through a linear layer, a batch normalisation over the
  graphs and a rectifier; each of the 500000 nodes adds its graph's row to its own features, and the node table goes
  through a linear layer with bias, a batch normalisation over the nodes, a rectifier and a last linear layer with bias.

  The normalisation over the nodes is written twice: from the centred squares, `bn`, and folded into one scale and one
  shift per channel computed from the column sums of the values and of their squares, `affine`. Everything here is a
  definition; the laws between them are proved elsewhere.
-/
import Mathlib.Algebra.BigOperators.Group.Finset.Basic
import Idealize.ShloMosaic.PureOps.Ideal
import Idealize.ShloMosaic.Lib.ValueIdx

noncomputable section

open scoped BigOperators

namespace Cert.PoolNorm

open Idealize.ShloMosaic Idealize.ShloMosaic.ValueIdx

/-- The node table's shape, the graph table's, a weight matrix's, a channel vector's, the node labels'. -/
abbrev SN : Shape := ⟨2, ![500000, 128]⟩
abbrev SG : Shape := ⟨2, ![10000, 128]⟩
abbrev SW : Shape := ⟨2, ![128, 128]⟩
abbrev SC : Shape := ⟨1, ![128]⟩

/-- The variance's guard, and the two row counts, as the extended reals their single-precision words denote. -/
def eps : EReal := Ideal.ofBits .f32 0x3727C5AC#32
def cntG : EReal := Ideal.ofBits .f32 0x461C4000#32
def cntN : EReal := Ideal.ofBits .f32 0x48F42400#32

/-- A table given by its rows and columns, as an array over a rank-2 shape. -/
def arr2 {a b : ℕ} (f : Fin a → Fin b → EReal) : (⟨2, ![a, b]⟩ : Shape).Idx → EReal := fun j => f (j 0) (j 1)

/-- A vector given by its entries, as an array over a rank-1 shape. -/
def arr1 {a : ℕ} (f : Fin a → EReal) : (⟨1, ![a]⟩ : Shape).Idx → EReal := fun j => f (j 0)

theorem arr1_ix1 {a : ℕ} (f : Fin a → EReal) (p : Fin a) : arr1 f (ix1 p) = f p := rfl

theorem arr2_ix2 {a b : ℕ} (f : Fin a → Fin b → EReal) (p : Fin a) (q : Fin b) : arr2 f (ix2 p q) = f p q := rfl

/-- Row r of an n-row table X against the matrix W, column q. -/
def lin {n : ℕ} (X : (⟨2, ![n, 128]⟩ : Shape).Idx → EReal) (W : SW.Idx → EReal) (r : Fin n) (q : Fin 128) : EReal :=
  ∑ k : Fin 128, X (ix2 r k) * W (ix2 k q)

/-- Column q's mean over the n rows, the count given as an extended real. -/
def colMean {n : ℕ} (Y : Fin n → Fin 128 → EReal) (cnt : EReal) (q : Fin 128) : EReal :=
  Ideal.div (∑ r : Fin n, Y r q) cnt

/-- Column q's variance: the mean of the squared distances from the column's mean. -/
def colVar {n : ℕ} (Y : Fin n → Fin 128 → EReal) (cnt : EReal) (q : Fin 128) : EReal :=
  Ideal.div (∑ r : Fin n, (Y r q - colMean Y cnt q) * (Y r q - colMean Y cnt q)) cnt

/-- Batch normalisation of the table Y over its rows, with gain g and offset b per channel. -/
def bn {n : ℕ} (Y : Fin n → Fin 128 → EReal) (cnt : EReal) (g b : SC.Idx → EReal) (r : Fin n) (q : Fin 128) : EReal :=
  (Y r q - colMean Y cnt q) * Ideal.rsqrt (colVar Y cnt q + eps) * g (ix1 q) + b (ix1 q)

/-- The graph table after its linear layer, normalisation and rectifier. -/
def poolOut (P : SG.Idx → EReal) (Wl : SW.Idx → EReal) (g b : SC.Idx → EReal) : SG.Idx → EReal :=
  arr2 fun r q => max (bn (lin P Wl) cntG g b r q) 0

/-- The node table after the first linear layer: the node's features plus its graph's row, against W1, plus b1. -/
def hidden (x Gt : SN.Idx → EReal) (W1 : SW.Idx → EReal) (b1 : SC.Idx → EReal) (r : Fin 500000) (q : Fin 128) : EReal :=
  (∑ k : Fin 128, (x (ix2 r k) + Gt (ix2 r k)) * W1 (ix2 k q)) + b1 (ix1 q)

/-- The result with the node normalisation taken from the centred squares. -/
def outBn (U : Fin 500000 → Fin 128 → EReal) (g b : SC.Idx → EReal) (W2 : SW.Idx → EReal) (b2 : SC.Idx → EReal) :
    SN.Idx → EReal :=
  arr2 fun r q => (∑ k : Fin 128, max (bn U cntN g b r k) 0 * W2 (ix2 k q)) + b2 (ix1 q)

/-- Column sums of the values and of their squares. -/
def colSum (U : Fin 500000 → Fin 128 → EReal) (q : Fin 128) : EReal := ∑ r : Fin 500000, U r q
def colSumSq (U : Fin 500000 → Fin 128 → EReal) (q : Fin 128) : EReal := ∑ r : Fin 500000, U r q * U r q

/-- The folded normalisation: from a channel's sum s and sum of squares s2, the mean, the inverse deviation, the scale
    and the shift. -/
def foldMean (s : EReal) : EReal := Ideal.div s cntN
def foldInv (s s2 : EReal) : EReal := Ideal.rsqrt ((Ideal.div s2 cntN - foldMean s * foldMean s) + eps)
def foldScale (s s2 g : EReal) : EReal := g * foldInv s s2
def foldShift (s s2 g b : EReal) : EReal := b - foldMean s * foldInv s s2 * g

/-- The last layers over a node table U with any scale and shift per channel: rectified U · scale + shift, against W2,
    plus b2. -/
def affineOut (U : SN.Idx → EReal) (sc sh : SC.Idx → EReal) (W2 : SW.Idx → EReal) (b2 : SC.Idx → EReal) : SN.Idx → EReal :=
  arr2 fun r q => (∑ k : Fin 128, max (U (ix2 r k) * sc (ix1 k) + sh (ix1 k)) 0 * W2 (ix2 k q)) + b2 (ix1 q)

/-- The result with the node normalisation folded into a scale and a shift per channel. -/
def outAffine (U : Fin 500000 → Fin 128 → EReal) (g b : SC.Idx → EReal) (W2 : SW.Idx → EReal) (b2 : SC.Idx → EReal) :
    SN.Idx → EReal :=
  affineOut (arr2 U) (arr1 fun k => foldScale (colSum U k) (colSumSq U k) (g (ix1 k)))
    (arr1 fun k => foldShift (colSum U k) (colSumSq U k) (g (ix1 k)) (b (ix1 k))) W2 b2

end Cert.PoolNorm

end
-- ==== Proof.LibUnitAxis.lean ====
/-
  Index broadcasts and a conjunction over a unit axis, read at an index.

  A vector laid as a column, or repeated along columns, reads the vector's entry of the row; a scalar laid over any shape
  reads its one value; the conjunction of a one-bit column [M, 1] over its unit axis, from the initial value one, is the
  column's own bit.
-/
import Idealize.ShloMosaic.Lib.ValueIdx
import Idealize.ShloMosaic.Lib.Pipeline.Value
import Idealize.ShloMosaic.Lib.ValueLayout
import Idealize.ShloMosaic.PureOps.Reduce

noncomputable section

namespace Cert.LibUnitAxis

open Idealize.ShloMosaic Idealize.ShloMosaic.ValueIdx

variable {α : Type}

/-- A vector [M] laid as one column [M, 1], read at (p, 0): the vector at p. -/
theorem bcast_col_apply {M : Nat} (h : (⟨1, ![M]⟩ : Shape).BroadcastsInDim ⟨2, ![M, 1]⟩ ![0])
    (v : (⟨1, ![M]⟩ : Shape).Idx → α) (p : Fin M) :
    broadcastInDim ⟨2, ![M, 1]⟩ ![0] h v (ix2 p (0 : Fin 1)) = v (ix1 p) := by
  refine broadcastInDim_apply _ h v _ (ix1 p) ?_
  intro a
  match a with
  | ⟨0, _⟩ =>
    show p.val = if M = 1 then 0 else p.val
    split
    · next h1 => have := p.isLt; omega
    · rfl

/-- A vector [M] repeated along C columns [M, C], read at (p, q): the vector at p. -/
theorem bcast_cols_apply {M C : Nat} (h : (⟨1, ![M]⟩ : Shape).BroadcastsInDim ⟨2, ![M, C]⟩ ![0])
    (v : (⟨1, ![M]⟩ : Shape).Idx → α) (p : Fin M) (q : Fin C) :
    broadcastInDim ⟨2, ![M, C]⟩ ![0] h v (ix2 p q) = v (ix1 p) := by
  refine broadcastInDim_apply _ h v _ (ix1 p) ?_
  intro a
  match a with
  | ⟨0, _⟩ =>
    show p.val = if M = 1 then 0 else p.val
    split
    · next h1 => have := p.isLt; omega
    · rfl

/-- A scalar constant laid over a column [M, 1] or any shape reads its one value everywhere. -/
theorem bcast_scalar_apply {t : Shape} (h : (⟨0, ![]⟩ : Shape).BroadcastsInDim t ![]) (v : (⟨0, ![]⟩ : Shape).Idx → α)
    (j : t.Idx) : broadcastInDim t ![] h v j = v ix0 := by
  exact broadcastInDim_apply _ h v j ix0 (fun a => a.elim0)

/-- THE MASK'S REDUCTION. The conjunction of a one-bit column [M, 1] over its unit axis, from an initial value 1, is
    at p the column's bit at (p, 0): one element, and 1 ∧ b = b. -/
theorem reduce_andi_unit_apply {M : Nat} {u : Shape} (x : IVec ⟨2, ![M, 1]⟩ 1) (init : u.Idx → BitVec 1)
    (h : (⟨2, ![M, 1]⟩ : Shape).ReducesTo [1] ⟨1, ![M]⟩) (hu : 0 < u.numel) (hinit : ∀ i, init i = 1#1) (p : Fin M) :
    Host.reduce IntOp.andi x init h hu (ix1 p) = x (ix2 p (0 : Fin 1)) := by
  rw [Host.reduce_eq_fold]
  have hset : (Finset.univ.filter fun i : (⟨2, ![M, 1]⟩ : Shape).Idx => h.drop i = ix1 p)
      = {ix2 p (0 : Fin 1)} := by
    ext i
    simp only [Finset.mem_filter, Finset.mem_univ, true_and, Finset.mem_singleton]
    have hv : ((h.drop i) 0 : Nat) = (i 0).val := Shape.ReducesTo.drop_apply_val h i 0
    constructor
    · intro e
      rw [e] at hv
      funext a
      match a with
      | ⟨0, _⟩ => exact Fin.ext hv.symm
      | ⟨1, _⟩ =>
        refine Fin.ext ?_
        have h1 : (i 1).val < 1 := (i 1).isLt
        show (i 1).val = 0
        omega
    · intro e
      subst e
      funext b
      match b with
      | ⟨0, _⟩ => exact Fin.ext hv
  rw [hset, Finset.fold_singleton, hinit]
  rcases BitVec.eq_zero_or_eq_one (x (ix2 p (0 : Fin 1))) with e | e <;> rw [e] <;> decide

end Cert.LibUnitAxis

end
-- ==== Proof.KernelHost.lean ====
/-
  The host operations of the kernel's program between its launches, read as functions of the buffers they find: the
  per-graph sums before the first launch; the rows of the graph table the nodes read, before the second (every label
  in range, so no row is replaced by the filler); the scale and the shift of the folded normalisation, before the third.
-/
import proofs.«431360_j69028714381387_1_alg».proof.Proof.Gen.KernelIdeal.Frame
import proofs.«431360_j69028714381387_1_alg».proof.Proof.Spec
import proofs.«431360_j69028714381387_1_alg».proof.Proof.LibUnitAxis
import Idealize.ShloMosaic.Lib.ValueLayout

set_option maxRecDepth 16384

noncomputable section

open scoped BigOperators

namespace Cert.KernelIdeal.HostRead

open Cert.KernelIdeal Cert.KernelIdeal.Gen Idealize.ShloMosaic Idealize.ShloMosaic.TcCoe Idealize.SL.Sem
open Idealize.ShloMosaic.ValueIdx Cert.PoolNorm
open Idealize.ShloMosaic.Pipeline (Dat Cfg Window)

/-- The per-graph sums of the node features: each node's row added into the row its label names. -/
def pooled (x : FVec Ideal S500000x128 .f32) (batch : IVec S500000 32) : FVec Ideal S10000x128 .f32 :=
  Host.scatterAdd (F := Ideal) scatter_S10000x128_S500000x1_S500000x128_1_0_0_1
    (broadcastInDim S10000x128 ![] bcast_S_S10000x128 (constant (F := Ideal) S_ .f32 0x00000000#32))
    (broadcastInDim S500000x1 ![0] bcast_S500000_S500000x1_0 batch) x

/-- The row each node reads: its label, a negative one counted from the end, laid as a column. -/
def rowIdx (batch : IVec S500000 32) : IVec S500000x1 32 :=
  broadcastInDim S500000x1 ![0] bcast_S500000_S500000x1_0
    (select (cmpi .slt batch (broadcastInDim S500000 ![] bcast_S_S500000 (constantI S_ 32 0#32)))
      (addi batch (broadcastInDim S500000 ![] bcast_S_S500000 (constantI S_ 32 10000#32))) batch)

/-- The rows of a graph table the nodes read. -/
def taken (T : FVec Ideal S10000x128 .f32) (batch : IVec S500000 32) : FVec Ideal S500000x128 .f32 :=
  Host.gather gather_S10000x128_S500000x1_S500000x128_1_0_n_n_0_1_1128 T (rowIdx batch)

variable (X : Valuation τ sig (Elt Ideal))

/-! ## Before the first launch -/

theorem host0_pooled :
    StableHlo.after hostOps0 X (Proc.devRef .tc main_v2)
      = pooled (X (Proc.devRef .tc main_arg0)) (X (Proc.devRef .tc main_arg3)) := by
  show StableHlo.after hostOps0 X (Proc.devRef .tc main_v2) = _
  after_results
  rfl

theorem host0_keep (b : Ref sig .tc) (hb : b ∉ ([main_cst, main_v0, main_v1, main_v2] : List (Ref sig .tc))) :
    StableHlo.after hostOps0 X (Proc.devRef .tc b) = X (Proc.devRef .tc b) := by
  simp only [List.mem_cons, List.not_mem_nil, or_false, not_or] at hb
  refine StableHlo.after_of_forall_not_mem (b := Proc.devRef .tc b) _ _ (List.forall_iff_forall_mem.mp ?_)
  simp only [hostOps0, List.Forall, StableHlo.nullary_writes, StableHlo.unary_writes, StableHlo.binary_writes,
    StableHlo.ternary_writes, StableHlo.quaternary_writes, StableHlo.reshape_writes, StableHlo.binaryIndexed_writes,
    Finset.mem_singleton]
  exact ⟨StableHlo.devRef_ne_of_ne hb.1, StableHlo.devRef_ne_of_ne hb.2.1, StableHlo.devRef_ne_of_ne hb.2.2.1,
    StableHlo.devRef_ne_of_ne hb.2.2.2⟩

/-! ## Between the first and the second launch -/

/-! ### One label's word: in range, it is not wrapped and both bounds hold -/

/-- A word whose signed value is not negative is not below zero. -/
private theorem word_slt_zero (w : BitVec 32) (h : 0 ≤ w.toInt) : IntOp.cmpi .slt w 0#32 = 0#1 := by
  have h0 : (0#32 : BitVec 32).toInt = 0 := by decide
  have e : w.slt 0#32 = false := by
    unfold BitVec.slt
    rw [h0]
    exact decide_eq_false (by omega)
  show BitVec.ofBool (w.slt 0#32) = 0#1
  rw [e]
  rfl

/-- A word whose signed value is not negative is at least zero. -/
private theorem word_sge_zero (w : BitVec 32) (h : 0 ≤ w.toInt) : IntOp.cmpi .sge w 0#32 = 1#1 := by
  have h0 : (0#32 : BitVec 32).toInt = 0 := by decide
  have e : (0#32 : BitVec 32).sle w = true := by
    unfold BitVec.sle
    rw [h0]
    exact decide_eq_true h
  show BitVec.ofBool ((0#32 : BitVec 32).sle w) = 1#1
  rw [e]
  rfl

/-- A word whose signed value is below 10000 is at most 9999. -/
private theorem word_sle_last (w : BitVec 32) (h : w.toInt < 10000) : IntOp.cmpi .sle w 9999#32 = 1#1 := by
  have h0 : (9999#32 : BitVec 32).toInt = 9999 := by decide
  have e : w.sle 9999#32 = true := by
    unfold BitVec.sle
    rw [h0]
    exact decide_eq_true (by omega)
  show BitVec.ofBool (w.sle 9999#32) = 1#1
  rw [e]
  rfl

/-- With every label in range the row index of node p is its label. -/
private theorem rowIdx_at (batch : IVec S500000 32) (p : Fin 500000) (h : 0 ≤ (batch (ix1 p)).toInt) :
    rowIdx batch (ix2 p (0 : Fin 1)) = batch (ix1 p) := by
  unfold rowIdx
  rw [Cert.LibUnitAxis.bcast_col_apply]
  show Scalar.select (IntOp.cmpi .slt (batch (ix1 p)) 0#32) (IntOp.addi (batch (ix1 p)) 10000#32) (batch (ix1 p))
    = batch (ix1 p)
  rw [word_slt_zero _ h]
  rfl

/-- With every label in range no row is replaced by the filler: the selection returns the rows read. -/
private theorem take_all (T : FVec Ideal S10000x128 .f32) (batch : IVec S500000 32)
    (hr : ∀ i : Fin 500000, 0 ≤ (batch (ix1 i)).toInt ∧ (batch (ix1 i)).toInt < 10000) :
    select
        (broadcastInDim S500000x128 ![0] bcast_S500000_S500000x128_0
          (Host.reduce IntOp.andi
            (andi
              (cmpi .sge (rowIdx batch) (broadcastInDim S500000x1 ![] bcast_S_S500000x1 (constantI S_ 32 0#32)))
              (cmpi .sle (rowIdx batch)
                (broadcastInDim S500000x1 ![0, 1] bcast_S1x1_S500000x1_0_1
                  (broadcastInDim S1x1 ![1] bcast_S1_S1x1_1 (constantI S1 32 9999#32)))))
            (constantI S_ 1 1#1) reducesTo_S500000x1_S500000_d1 h_S_))
        (taken T batch)
        (broadcastInDim S500000x128 ![] bcast_S_S500000x128 (constant (F := Ideal) S_ .f32 0x7FC00000#32))
      = taken T batch := by
  funext j
  obtain ⟨p, q, rfl⟩ : ∃ p q, j = ix2 p q := ⟨j 0, j 1, eq_ix2 j⟩
  show Scalar.select
      (broadcastInDim S500000x128 ![0] bcast_S500000_S500000x128_0
        (Host.reduce IntOp.andi
          (andi
            (cmpi .sge (rowIdx batch) (broadcastInDim S500000x1 ![] bcast_S_S500000x1 (constantI S_ 32 0#32)))
            (cmpi .sle (rowIdx batch)
              (broadcastInDim S500000x1 ![0, 1] bcast_S1x1_S500000x1_0_1
                (broadcastInDim S1x1 ![1] bcast_S1_S1x1_1 (constantI S1 32 9999#32)))))
          (constantI S_ 1 1#1) reducesTo_S500000x1_S500000_d1 h_S_) (ix2 p q))
      (taken T batch (ix2 p q)) _ = _
  rw [Cert.LibUnitAxis.bcast_cols_apply, Cert.LibUnitAxis.reduce_andi_unit_apply _ (constantI S_ 1 1#1) _ _ (fun _ => rfl)]
  have hm : andi
      (cmpi .sge (rowIdx batch) (broadcastInDim S500000x1 ![] bcast_S_S500000x1 (constantI S_ 32 0#32)))
      (cmpi .sle (rowIdx batch)
        (broadcastInDim S500000x1 ![0, 1] bcast_S1x1_S500000x1_0_1
          (broadcastInDim S1x1 ![1] bcast_S1_S1x1_1 (constantI S1 32 9999#32)))) (ix2 p (0 : Fin 1)) = 1#1 := by
    show IntOp.andi (IntOp.cmpi .sge (rowIdx batch (ix2 p (0 : Fin 1))) 0#32)
      (IntOp.cmpi .sle (rowIdx batch (ix2 p (0 : Fin 1))) 9999#32) = 1#1
    rw [rowIdx_at batch p (hr p).1, word_sge_zero _ (hr p).1, word_sle_last _ (hr p).2]
    rfl
  rw [hm]
  rfl

/-! ### The stretch's results -/

theorem host1_taken
    (hr : ∀ i : Fin 500000, 0 ≤ (X (Proc.devRef .tc main_arg3) (ix1 i)).toInt ∧ (X (Proc.devRef .tc main_arg3) (ix1 i)).toInt < 10000) :
    StableHlo.after hostOps1 X (Proc.devRef .tc main_v4)
      = taken (X (Proc.devRef .tc main_v3)) (X (Proc.devRef .tc main_arg3)) := by
  show StableHlo.after hostOps1 X (Proc.devRef .tc main_v4) = _
  after_results_simp
  simp only [StableHlo.TRef.ofBuf, StableHlo.TRef.toBuf, cast_eq]
  exact take_all (X (Proc.devRef .tc main_v3)) (X (Proc.devRef .tc main_arg3)) hr

theorem host1_keep (b : Ref sig .tc)
    (hb : b ∉ ([main_call0_c, main_call0_v0, main_call0_v1, main_call0_c_0, main_call0_v2, main_call0_v3, main_call0_v4, main_call0_v5,
      main_call0_c_1, main_call0_c_2, main_call0_v6, main_call0_v7, main_call0_v8, main_call0_v9, main_call0_v10, main_call0_v11,
      main_call0_c_3, main_call0_v12, main_call0_v13, main_call0_v14, main_call0_cst, main_call0_v15, main_v4] : List (Ref sig .tc))) :
    StableHlo.after hostOps1 X (Proc.devRef .tc b) = X (Proc.devRef .tc b) := by
  simp only [List.mem_cons, List.not_mem_nil, or_false, not_or] at hb
  obtain ⟨h1, h2, h3, h4, h5, h6, h7, h8, h9, h10, h11, h12, h13, h14, h15, h16, h17, h18, h19, h20, h21, h22, h23⟩ := hb
  refine StableHlo.after_of_forall_not_mem (b := Proc.devRef .tc b) _ _ (List.forall_iff_forall_mem.mp ?_)
  simp only [hostOps1, List.Forall, StableHlo.nullary_writes, StableHlo.unary_writes, StableHlo.binary_writes,
    StableHlo.ternary_writes, StableHlo.quaternary_writes, StableHlo.reshape_writes, StableHlo.binaryIndexed_writes,
    Finset.mem_singleton]
  exact ⟨StableHlo.devRef_ne_of_ne h1, StableHlo.devRef_ne_of_ne h2, StableHlo.devRef_ne_of_ne h3, StableHlo.devRef_ne_of_ne h4,
    StableHlo.devRef_ne_of_ne h5, StableHlo.devRef_ne_of_ne h6, StableHlo.devRef_ne_of_ne h7, StableHlo.devRef_ne_of_ne h8,
    StableHlo.devRef_ne_of_ne h9, StableHlo.devRef_ne_of_ne h10, StableHlo.devRef_ne_of_ne h11, StableHlo.devRef_ne_of_ne h12,
    StableHlo.devRef_ne_of_ne h13, StableHlo.devRef_ne_of_ne h14, StableHlo.devRef_ne_of_ne h15, StableHlo.devRef_ne_of_ne h16,
    StableHlo.devRef_ne_of_ne h17, StableHlo.devRef_ne_of_ne h18, StableHlo.devRef_ne_of_ne h19, StableHlo.devRef_ne_of_ne h20,
    StableHlo.devRef_ne_of_ne h21, StableHlo.devRef_ne_of_ne h22, StableHlo.devRef_ne_of_ne h23⟩

/-! ## Between the second and the third launch -/

/-! ### The pieces at an index -/

/-- A row [1,128] of column sums laid as a vector and divided by the row count: at k, the sum at (0,k) over the count. -/
private theorem mean_at (s : FVec Ideal S1x128 .f32) (k : Fin 128) :
    Host.divf (F := Ideal) (fun i => shapeCast S128 s shapeCasts_S1x128_S128 i)
        (broadcastInDim S128 ![] bcast_S_S128 (constant (F := Ideal) S_ .f32 0x48F42400#32)) (ix1 k)
      = Ideal.div (s (ix2 (0 : Fin 1) k)) cntN := by
  show Ideal.div (shapeCast S128 s shapeCasts_S1x128_S128 (ix1 k))
      (broadcastInDim S128 ![] bcast_S_S128 (constant (F := Ideal) S_ .f32 0x48F42400#32) (ix1 k)) = _
  rw [shapeCast_1a_a_apply, Cert.LibUnitAxis.bcast_scalar_apply]
  rfl

/-- The guard laid over the channels reads the guard. -/
private theorem eps_at (k : Fin 128) :
    broadcastInDim S128 ![] bcast_S_S128 (constant (F := Ideal) S_ .f32 0x3727C5AC#32) (ix1 k) = eps := by
  rw [Cert.LibUnitAxis.bcast_scalar_apply]
  rfl

/-- The scale of the folded normalisation, as the operations compute it, at a channel. -/
private theorem scale_at (s1 s2 : FVec Ideal S1x128 .f32) (g : FVec Ideal S128 .f32) (k : Fin 128) :
    mulf g
      (Host.rsqrt
        (addf
          (subf
            (Host.divf (fun i => shapeCast S128 s2 shapeCasts_S1x128_S128 i)
              (broadcastInDim S128 ![] bcast_S_S128 (constant (F := Ideal) S_ .f32 0x48F42400#32)))
            (mulf
              (Host.divf (fun i => shapeCast S128 s1 shapeCasts_S1x128_S128 i)
                (broadcastInDim S128 ![] bcast_S_S128 (constant (F := Ideal) S_ .f32 0x48F42400#32)))
              (Host.divf (fun i => shapeCast S128 s1 shapeCasts_S1x128_S128 i)
                (broadcastInDim S128 ![] bcast_S_S128 (constant (F := Ideal) S_ .f32 0x48F42400#32)))))
          (broadcastInDim S128 ![] bcast_S_S128 (constant (F := Ideal) S_ .f32 0x3727C5AC#32)))) (ix1 k)
      = foldScale (s1 (ix2 (0 : Fin 1) k)) (s2 (ix2 (0 : Fin 1) k)) (g (ix1 k)) := by
  show g (ix1 k) * Ideal.rsqrt (((Host.divf (F := Ideal) (fun i => shapeCast S128 s2 shapeCasts_S1x128_S128 i)
        (broadcastInDim S128 ![] bcast_S_S128 (constant (F := Ideal) S_ .f32 0x48F42400#32)) (ix1 k))
      - (Host.divf (F := Ideal) (fun i => shapeCast S128 s1 shapeCasts_S1x128_S128 i)
        (broadcastInDim S128 ![] bcast_S_S128 (constant (F := Ideal) S_ .f32 0x48F42400#32)) (ix1 k))
        * (Host.divf (F := Ideal) (fun i => shapeCast S128 s1 shapeCasts_S1x128_S128 i)
        (broadcastInDim S128 ![] bcast_S_S128 (constant (F := Ideal) S_ .f32 0x48F42400#32)) (ix1 k)))
      + broadcastInDim S128 ![] bcast_S_S128 (constant (F := Ideal) S_ .f32 0x3727C5AC#32) (ix1 k)) = _
  rw [mean_at, mean_at, eps_at]
  rfl

/-- The shift of the folded normalisation, as the operations compute it, at a channel. -/
private theorem shift_at (s1 s2 : FVec Ideal S1x128 .f32) (g b : FVec Ideal S128 .f32) (k : Fin 128) :
    subf b
      (mulf
        (mulf
          (Host.divf (fun i => shapeCast S128 s1 shapeCasts_S1x128_S128 i)
            (broadcastInDim S128 ![] bcast_S_S128 (constant (F := Ideal) S_ .f32 0x48F42400#32)))
          (Host.rsqrt
            (addf
              (subf
                (Host.divf (fun i => shapeCast S128 s2 shapeCasts_S1x128_S128 i)
                  (broadcastInDim S128 ![] bcast_S_S128 (constant (F := Ideal) S_ .f32 0x48F42400#32)))
                (mulf
                  (Host.divf (fun i => shapeCast S128 s1 shapeCasts_S1x128_S128 i)
                    (broadcastInDim S128 ![] bcast_S_S128 (constant (F := Ideal) S_ .f32 0x48F42400#32)))
                  (Host.divf (fun i => shapeCast S128 s1 shapeCasts_S1x128_S128 i)
                    (broadcastInDim S128 ![] bcast_S_S128 (constant (F := Ideal) S_ .f32 0x48F42400#32)))))
              (broadcastInDim S128 ![] bcast_S_S128 (constant (F := Ideal) S_ .f32 0x3727C5AC#32)))))
        g) (ix1 k)
      = foldShift (s1 (ix2 (0 : Fin 1) k)) (s2 (ix2 (0 : Fin 1) k)) (g (ix1 k)) (b (ix1 k)) := by
  show b (ix1 k) - (Host.divf (F := Ideal) (fun i => shapeCast S128 s1 shapeCasts_S1x128_S128 i)
        (broadcastInDim S128 ![] bcast_S_S128 (constant (F := Ideal) S_ .f32 0x48F42400#32)) (ix1 k))
      * Ideal.rsqrt (((Host.divf (F := Ideal) (fun i => shapeCast S128 s2 shapeCasts_S1x128_S128 i)
        (broadcastInDim S128 ![] bcast_S_S128 (constant (F := Ideal) S_ .f32 0x48F42400#32)) (ix1 k))
      - (Host.divf (F := Ideal) (fun i => shapeCast S128 s1 shapeCasts_S1x128_S128 i)
        (broadcastInDim S128 ![] bcast_S_S128 (constant (F := Ideal) S_ .f32 0x48F42400#32)) (ix1 k))
        * (Host.divf (F := Ideal) (fun i => shapeCast S128 s1 shapeCasts_S1x128_S128 i)
        (broadcastInDim S128 ![] bcast_S_S128 (constant (F := Ideal) S_ .f32 0x48F42400#32)) (ix1 k)))
      + broadcastInDim S128 ![] bcast_S_S128 (constant (F := Ideal) S_ .f32 0x3727C5AC#32) (ix1 k)) * g (ix1 k) = _
  rw [mean_at, mean_at, eps_at]
  rfl

/-! ### The stretch's results -/

theorem host2_scale :
    StableHlo.after hostOps2 X (Proc.devRef .tc main_v17)
      = arr1 fun k => foldScale (X (Proc.devRef .tc main_v5_1) (ix2 (0 : Fin 1) k)) (X (Proc.devRef .tc main_v5_2) (ix2 (0 : Fin 1) k))
          (X (Proc.devRef .tc main_arg9) (ix1 k)) := by
  show StableHlo.after hostOps2 X (Proc.devRef .tc main_v17) = _
  after_results_simp
  funext j
  obtain ⟨k, rfl⟩ : ∃ k, j = ix1 k := ⟨j 0, eq_ix1 j⟩
  exact scale_at (X (Proc.devRef .tc main_v5_1)) (X (Proc.devRef .tc main_v5_2)) (X (Proc.devRef .tc main_arg9)) k

theorem host2_shift :
    StableHlo.after hostOps2 X (Proc.devRef .tc main_v20)
      = arr1 fun k => foldShift (X (Proc.devRef .tc main_v5_1) (ix2 (0 : Fin 1) k)) (X (Proc.devRef .tc main_v5_2) (ix2 (0 : Fin 1) k))
          (X (Proc.devRef .tc main_arg9) (ix1 k)) (X (Proc.devRef .tc main_arg10) (ix1 k)) := by
  show StableHlo.after hostOps2 X (Proc.devRef .tc main_v20) = _
  after_results_simp
  funext j
  obtain ⟨k, rfl⟩ : ∃ k, j = ix1 k := ⟨j 0, eq_ix1 j⟩
  exact shift_at (X (Proc.devRef .tc main_v5_1)) (X (Proc.devRef .tc main_v5_2)) (X (Proc.devRef .tc main_arg9))
    (X (Proc.devRef .tc main_arg10)) k

theorem host2_keep (b : Ref sig .tc)
    (hb : b ∉ ([main_v6, main_cst_0, main_v7, main_v8, main_v9, main_cst_1, main_v10, main_v11, main_v12, main_v13, main_cst_2, main_v14,
      main_v15, main_v16, main_v17, main_v18, main_v19, main_v20] : List (Ref sig .tc))) :
    StableHlo.after hostOps2 X (Proc.devRef .tc b) = X (Proc.devRef .tc b) := by
  simp only [List.mem_cons, List.not_mem_nil, or_false, not_or] at hb
  obtain ⟨h1, h2, h3, h4, h5, h6, h7, h8, h9, h10, h11, h12, h13, h14, h15, h16, h17, h18⟩ := hb
  refine StableHlo.after_of_forall_not_mem (b := Proc.devRef .tc b) _ _ (List.forall_iff_forall_mem.mp ?_)
  simp only [hostOps2, List.Forall, StableHlo.nullary_writes, StableHlo.unary_writes, StableHlo.binary_writes,
    StableHlo.ternary_writes, StableHlo.quaternary_writes, StableHlo.reshape_writes, StableHlo.binaryIndexed_writes,
    Finset.mem_singleton]
  exact ⟨StableHlo.devRef_ne_of_ne h1, StableHlo.devRef_ne_of_ne h2, StableHlo.devRef_ne_of_ne h3, StableHlo.devRef_ne_of_ne h4,
    StableHlo.devRef_ne_of_ne h5, StableHlo.devRef_ne_of_ne h6, StableHlo.devRef_ne_of_ne h7, StableHlo.devRef_ne_of_ne h8,
    StableHlo.devRef_ne_of_ne h9, StableHlo.devRef_ne_of_ne h10, StableHlo.devRef_ne_of_ne h11, StableHlo.devRef_ne_of_ne h12,
    StableHlo.devRef_ne_of_ne h13, StableHlo.devRef_ne_of_ne h14, StableHlo.devRef_ne_of_ne h15, StableHlo.devRef_ne_of_ne h16,
    StableHlo.devRef_ne_of_ne h17, StableHlo.devRef_ne_of_ne h18⟩

end Cert.KernelIdeal.HostRead

end
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.LibWhole.lean ====
/-
  A store through the rectangle that is the whole of a buffer's shape covers every index, so whatever was stored
  before it is gone: the buffer reads back the last such store's payload.
-/
import Idealize.ShloMosaic.Lib.Pipeline.Value

noncomputable section

namespace Cert.LibWhole

open Idealize.ShloMosaic

variable {Val : EltTy → Type} {S : Shape} {e : EltTy}

/-- Every index lies in the unit-stride rectangle at zero offsets whose sizes are the shape's own. -/
theorem mem_unit_zero {off : Fin S.rank → Nat} (h : off = fun _ => 0) (inb : ∀ a, off a + S.size a ≤ S.size a)
    (y : S.Idx) : y ∈ (Rect.unit off S.size inb).set := by
  subst h
  show y ∈ (Rect.whole S).set
  rw [Rect.set_whole]; exact Finset.mem_univ y

/-- A list of pieces whose head is such a rectangle covers the shape. -/
theorem cover_head {off : Fin S.rank → Nat} (h : off = fun _ => 0) (inb : ∀ a, off a + S.size a ≤ S.size a)
    (w : S.Idx → Val e) (L : List (View.Piece Val S e)) (y : S.Idx) :
    ∃ p ∈ ((⟨Rect.unit off S.size inb, w⟩ : View.Piece Val S e) :: L), y ∈ p.1.set :=
  ⟨⟨Rect.unit off S.size inb, w⟩, List.mem_cons_self, mem_unit_zero h inb y⟩

/-- Reading a buffer back after a list of stores whose LAST (the list's head) is a store through the whole rectangle
    gives that store's payload. -/
theorem read_writes_head [∀ e, Nonempty (Val e)] {sig : RefSig} {κ : Kind} {sp : Space} (v : View sig κ sp S e)
    (f : v.ty.Contents Val) {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon v f _ (cover_head h inb w L), View.canon_cons_unit_zero h]

/-- A load through the whole rectangle after such a list of stores reads the last store's payload. -/
theorem readCov_head [∀ e, Nonempty (Val e)] {sig : RefSig} {κ : Kind} {sp : Space} (v : View sig κ sp S e)
    {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (cover_head rfl inb w L), View.canon_cons_unit_zero rfl, View.ld_unit_zero rfl]

theorem zeros2 : (![0, 0] : Fin 2 → Nat) = fun _ => 0 := by funext a; fin_cases a <;> rfl

end Cert.LibWhole

end
-- ==== Proof.PoolRegion.lean ====
/-
  The first launch: one grid point whose blocks are the whole arrays. The graph table it leaves is the specification's
  linear layer, normalisation over the graphs and rectifier of the table of per-graph sums it was given.
-/
import proofs.«431360_j69028714381387_1_alg».proof.Proof.Gen.KernelIdeal.Frame
import proofs.«431360_j69028714381387_1_alg».proof.Proof.Spec
import proofs.«431360_j69028714381387_1_alg».proof.Proof.LibDotPlain
import proofs.«431360_j69028714381387_1_alg».proof.Proof.LibWhole
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.PoolRegion

open Cert.KernelIdeal Cert.KernelIdeal.Gen Idealize.ShloMosaic Idealize.ShloMosaic.TcCoe Idealize.SL.Sem
open Idealize.ShloMosaic.ValueIdx Cert.PoolNorm
open Idealize.ShloMosaic.Pipeline (Dat Cfg Window)

/-! ## The body's arithmetic, index by index -/

/-- The index a sum over the rows inserts: row r of column q. -/
private theorem lift_rows (h : S10000x128.Reduces [0] S128) (q : Fin 128) (r : Fin 10000) :
    h.lift (ix1 q) r = ix2 r q := by
  funext a; apply Fin.ext
  match a with
  | ⟨0, _⟩ => rfl
  | ⟨1, _⟩ => rfl

/-- A sum over the rows of a table, read at column q. -/
private theorem colsum_apply (Y : FVec Ideal S10000x128 .f32) (h : S10000x128.Reduces [0] S128) (hφ : FKind.Formats .f32)
    (hacc : @Eq (BitVec FTy.f32.bits) 0x00000000#32 0x00000000#32) (q : Fin 128) :
    multiReduction (F := Ideal) .add [0] S128 Y 0x00000000#32 h hφ hacc (ix1 q) = ∑ r : Fin 10000, Y (ix2 r q) := by
  refine (Ideal.multiReduction_add_single Y 0x00000000#32 h hφ hacc (ix1 q)).trans ?_
  exact Finset.sum_congr rfl fun r _ => congrArg Y (lift_rows h q r)

/-- The product of the table with the weights, read at (p, q). -/
private theorem prod_apply (x0 : Vec Ideal S10000x128 .f32) (x1 : Vec Ideal S128x128 .f32) (p : Fin 10000) (q : Fin 128) :
    matmul (F := Ideal) dot_S10000x128_S128x128_S10000x128_1_0_0_1_n_n none
        (truncf .bf16 (shapeCast S10000x128 x0 shapeCasts_S10000x128_S10000x128) bitsLt_bf16_f32)
        (truncf .bf16 x1 bitsLt_bf16_f32) (constant S10000x128 .f32 0x00000000#32) (ix2 p q)
      = lin x0 x1 p q := by
  refine (Cert.LibDotPlain.matmul_zero_apply (m := 10000) (k := 128) (n := 128)
    dot_S10000x128_S128x128_S10000x128_1_0_0_1_n_n_wf none _ _ p q).trans ?_
  rw [shapeCast_self]
  rfl

/-- The reciprocal square root of a vector reads pointwise. -/
private theorem rsqrt_apply {s : Shape} {φ : FTy} (a : FVec Ideal s φ) (i : s.Idx) : rsqrt a i = Ideal.rsqrt (a i) := rfl

/-- The body's value at (p, q): the linear layer's entry, centred by its column's mean, scaled by the reciprocal root of the
    column's variance plus the guard, times the gain, plus the offset, rectified. -/
private theorem pay_apply (x0 : Vec Ideal S10000x128 .f32) (x1 : Vec Ideal S128x128 .f32) (x2 x3 : Vec Ideal S128 .f32)
    (p : Fin 10000) (q : Fin 128) :
    k0_pay1 (F := Ideal) x0 x1 x2 x3 (ix2 p q) = max (bn (lin x0 x1) cntG x2 x3 p q) 0 := by
  unfold k0_pay1
  dsimp only
  have hY : ∀ (r : Fin 10000) (k : Fin 128),
      matmul (F := Ideal) dot_S10000x128_S128x128_S10000x128_1_0_0_1_n_n none
        (truncf .bf16 (shapeCast S10000x128 x0 shapeCasts_S10000x128_S10000x128) bitsLt_bf16_f32)
        (truncf .bf16 x1 bitsLt_bf16_f32) (constant S10000x128 .f32 0x00000000#32) (ix2 r k) = lin x0 x1 r k :=
    prod_apply x0 x1
  generalize matmul (F := Ideal) dot_S10000x128_S128x128_S10000x128_1_0_0_1_n_n none
        (truncf .bf16 (shapeCast S10000x128 x0 shapeCasts_S10000x128_S10000x128) bitsLt_bf16_f32)
        (truncf .bf16 x1 bitsLt_bf16_f32) (constant S10000x128 .f32 0x00000000#32) = Y at hY ⊢
  simp only [maximumf_apply, addf_apply, mulf_apply, subf_apply, divf_apply, rsqrt_apply, broadcast_apply,
    broadcastTo_1b_ab_apply, shapeCast_a_1a_apply, colsum_apply, hY]
  rw [colsum_apply Y _ _ _ q, colsum_apply (mulf _ _) _ _ _ q]
  simp only [mulf_apply, subf_apply, divf_apply, broadcast_apply, broadcastTo_1b_ab_apply, shapeCast_a_1a_apply]
  rw [colsum_apply Y _ _ _ q]
  simp only [hY, Ideal.ofBits_def, Ideal.ofBits_zero_f32]
  unfold bn colVar colMean cntG eps
  rfl

/-- The body's value of a table of sums, a weight matrix, gains and offsets is the specification's graph table. -/
private theorem pay_eq (x0 : Vec Ideal S10000x128 .f32) (x1 : Vec Ideal S128x128 .f32) (x2 x3 : Vec Ideal S128 .f32) :
    (k0_pay1 (F := Ideal) x0 x1 x2 x3 : SG.Idx → EReal) = poolOut x0 x1 x2 x3 := by
  funext j
  obtain ⟨p, q, rfl⟩ : ∃ (p : Fin 10000) (q : Fin 128), j = ix2 p q := ⟨j 0, j 1, eq_ix2 j⟩
  exact pay_apply x0 x1 x2 x3 p q

/-! ## From the one block to the array -/

variable (V : (c : Dev nD) → (b : Ref sig .tc) → Buf (Elt Ideal) ((c : Thread nD τ).loc b))

private theorem zeros1 : (![0] : Fin 1 → Nat) = fun _ => 0 := funext fun a => by fin_cases a; rfl

/-- The one grid point's block of the table of sums is the whole table. -/
private theorem iblk_0 (c : Dev nD) (t : Fin cfg0.N) : iblk0 (F := Ideal) V c 0 t = V c main_v2 := by
  obtain rfl := fin_N0 t
  unfold iblk0
  have hz' : (fun a => win0_0.index t0_0 a * main_v2.ty.shape.size a) = fun _ => 0 :=
    funext fun a => by fin_cases a <;> decide
  exact Memref.read_access_unit_zero (Elt Ideal) main_v2 hz' (fun a => by rw [congrFun hz' a]; simp) (V c main_v2)

/-- Its block of the weights is the whole matrix. -/
private theorem iblk_1 (c : Dev nD) (t : Fin cfg0.N) : iblk0 (F := Ideal) V c 1 t = V c main_arg4 := by
  obtain rfl := fin_N0 t
  unfold iblk0
  have hz' : (fun a => win0_1.index t0_0 a * main_arg4.ty.shape.size a) = fun _ => 0 :=
    funext fun a => by fin_cases a <;> decide
  exact Memref.read_access_unit_zero (Elt Ideal) main_arg4 hz' (fun a => by rw [congrFun hz' a]; simp) (V c main_arg4)

/-- Its block of the gains is the whole vector. -/
private theorem iblk_2 (c : Dev nD) (t : Fin cfg0.N) : iblk0 (F := Ideal) V c 2 t = V c main_arg5 := by
  obtain rfl := fin_N0 t
  unfold iblk0
  have hz' : (fun a => win0_2.index t0_0 a * main_arg5.ty.shape.size a) = fun _ => 0 :=
    funext fun a => by fin_cases a; decide
  exact Memref.read_access_unit_zero (Elt Ideal) main_arg5 hz' (fun a => by rw [congrFun hz' a]; simp) (V c main_arg5)

/-- Its block of the offsets is the whole vector. -/
private theorem iblk_3 (c : Dev nD) (t : Fin cfg0.N) : iblk0 (F := Ideal) V c 3 t = V c main_arg6 := by
  obtain rfl := fin_N0 t
  unfold iblk0
  have hz' : (fun a => win0_3.index t0_0 a * main_arg6.ty.shape.size a) = fun _ => 0 :=
    funext fun a => by fin_cases a; decide
  exact Memref.read_access_unit_zero (Elt Ideal) main_arg6 hz' (fun a => by rw [congrFun hz' a]; simp) (V c main_arg6)

/-- What the one point writes back is the whole of the body's value of the four arrays. -/
private theorem flushed_eq (c : Dev nD) (t : Fin cfg0.N) :
    (dat0 (F := Ideal) V c).flushed 4 t = ((cfg0.win 4).blk t).view.read (Elt Ideal)
      (k0_pay1 (F := Ideal) (V c main_v2) (V c main_arg4) (V c main_arg5) (V c main_arg6)) := by
  show (cfg0.win 4).cut (grid0.coords t) ((dat0 (F := Ideal) V c).after 4 t) = _
  rw [after0_4]
  unfold out0_4
  rw [View.canon_unit_zero Cert.LibWhole.zeros2]
  simp only [View.ld_unit_zero (S := S10000x128) Cert.LibWhole.zeros2, View.ld_unit_zero (S := S128x128) Cert.LibWhole.zeros2,
    View.ld_unit_zero (S := S128) zeros1]
  rw [iblk_0, iblk_1, iblk_2, iblk_3]
  obtain rfl := fin_N0 t
  have hz' : (fun a => win0_4.index t0_0 a * main_v3.ty.shape.size a) = fun _ => 0 :=
    funext fun a => by fin_cases a <;> decide
  exact (Memref.read_access_unit_zero (Elt Ideal) main_v3 hz' (fun a => by rw [congrFun hz' a]; simp) _).symm

/-- After the launch the graph table holds the body's value of the four arrays. -/
private theorem arr_eq_pay (c : Dev nD) :
    (dat0 (F := Ideal) V c).arrAt 4 cfg0.N
      = k0_pay1 (F := Ideal) (V c main_v2) (V c main_arg4) (V c main_arg5) (V c main_arg6) :=
  (dat0 (F := Ideal) V c).arrAt_eq_of_cover 4 _ (fun t _ => flushed_eq V c t) fun i =>
    ⟨t0_0, flush0_4 t0_0, by
      show i ∈ ((View.whole main_v3).slice (win0_4.rect t0_0)).set
      rw [View.set_slice_whole, Rect.mem_set_unit]
      intro a
      have h0 : (i 0 : Nat) < 10000 := (i 0).isLt
      have h1 : (i 1 : Nat) < 128 := (i 1).isLt
      match a with
      | ⟨0, _⟩ =>
        show win0_4.index t0_0 0 * win0_4.size 0 ≤ (i 0 : Nat) ∧ (i 0 : Nat) < win0_4.index t0_0 0 * win0_4.size 0 + win0_4.xsize (grid0.coords t0_0) 0
        rw [show win0_4.index t0_0 0 * win0_4.size 0 = 0 from by decide +kernel, show win0_4.xsize (grid0.coords t0_0) 0 = 10000 from by decide +kernel]; omega
      | ⟨1, _⟩ =>
        show win0_4.index t0_0 1 * win0_4.size 1 ≤ (i 1 : Nat) ∧ (i 1 : Nat) < win0_4.index t0_0 1 * win0_4.size 1 + win0_4.xsize (grid0.coords t0_0) 1
        rw [show win0_4.index t0_0 1 * win0_4.size 1 = 0 from by decide +kernel, show win0_4.xsize (grid0.coords t0_0) 1 = 128 from by decide +kernel]; omega⟩

theorem pool_arr (c : Dev nD) :
    ((dat0 (F := Ideal) V c).arrAt 4 cfg0.N : SG.Idx → EReal)
      = poolOut (V c main_v2) (V c main_arg4) (V c main_arg5) (V c main_arg6) :=
  (arr_eq_pay V c).trans (pay_eq (V c main_v2) (V c main_arg4) (V c main_arg5) (V c main_arg6))

end Cert.KernelIdeal.PoolRegion

end
-- ==== Proof.LibTile.lean ====
/- Sums over a range cut into equal tiles. A sum over `Fin (m * n)` is the sum over the `m` tiles of the sums over the
   `n` places inside a tile, place `p` of tile `t` being `n * t + p`; and an accumulator that starts at zero plus the
   first tile's sum and adds one tile's sum per step ends at the whole sum. Stated over any additive commutative monoid,
   then at the literal sizes 20 tiles of 5000 in 100000. -/
import Mathlib.Algebra.BigOperators.Fin
import Mathlib.Algebra.BigOperators.Intervals
import Mathlib.Logic.Equiv.Fin.Basic

namespace Cert.Hand.LibTile

variable {M : Type*} [AddCommMonoid M]

/-- Place `p` of tile `t` lies inside the range. -/
theorem tile_lt {m n N : ℕ} (h : m * n = N) {t p : ℕ} (ht : t < m) (hp : p < n) : n * t + p < N := by
  subst h
  calc n * t + p < n * t + n := Nat.add_lt_add_left hp _
    _ = n * (t + 1) := (Nat.mul_succ n t).symm
    _ ≤ n * m := Nat.mul_le_mul_left n ht
    _ = m * n := Nat.mul_comm n m

/-- The whole sum is the sum over tiles of the sums inside each tile. -/
theorem sum_tiles {m n N : ℕ} (h : m * n = N) (f : Fin N → M) :
    ∑ t : Fin m, ∑ p : Fin n, f ⟨n * t.val + p.val, tile_lt h t.isLt p.isLt⟩ = ∑ r : Fin N, f r := by
  subst h
  rw [← Fintype.sum_prod_type (f := fun x : Fin m × Fin n => f ⟨n * x.1.val + x.2.val, tile_lt rfl x.1.isLt x.2.isLt⟩),
    ← Equiv.sum_comp finProdFinEquiv f]
  refine Finset.sum_congr rfl fun x _ => congrArg f (Fin.ext ?_)
  show n * x.1.val + x.2.val = x.2.val + n * x.1.val
  exact Nat.add_comm _ _

/-- An accumulator that is zero plus tile 0's sum after the first step and gains tile `k + 1`'s sum at step `k + 1`
    holds, after step `k`, the sum of the tiles up to `k`. -/
theorem acc_eq_sum_range {n : ℕ} (a : ℕ → M) (g : ℕ → Fin n → M) (m : ℕ)
    (h0 : a 0 = 0 + ∑ p : Fin n, g 0 p) (hs : ∀ k, k + 1 < m → a (k + 1) = a k + ∑ p : Fin n, g (k + 1) p) :
    ∀ k, k < m → a k = ∑ t ∈ Finset.range (k + 1), ∑ p : Fin n, g t p
  | 0, _ => by rw [h0, zero_add, Finset.sum_range_one]
  | k + 1, hk => by
    rw [hs k hk, acc_eq_sum_range a g m h0 hs k (Nat.lt_of_succ_lt hk), Finset.sum_range_succ _ (k + 1)]

/-- So after the last of `m` steps it holds the sum over all tiles, -/
theorem acc_last_eq_sum_fin {n : ℕ} (a : ℕ → M) (g : ℕ → Fin n → M) (m : ℕ) (hm : 0 < m)
    (h0 : a 0 = 0 + ∑ p : Fin n, g 0 p) (hs : ∀ k, k + 1 < m → a (k + 1) = a k + ∑ p : Fin n, g (k + 1) p) :
    a (m - 1) = ∑ t : Fin m, ∑ p : Fin n, g t.val p := by
  rw [acc_eq_sum_range a g m h0 hs (m - 1) (Nat.sub_lt hm Nat.one_pos), Nat.sub_add_cancel hm,
    Finset.sum_range fun t => ∑ p : Fin n, g t p]

/-- and when tile `t`'s place `p` is entry `n * t + p` of a function on the whole range, the whole sum of that
    function. -/
theorem acc_last_eq_sum {m n N : ℕ} (h : m * n = N) (hm : 0 < m) (f : Fin N → M) (a : ℕ → M) (g : ℕ → Fin n → M)
    (hg : ∀ (t : ℕ) (ht : t < m) (p : Fin n), g t p = f ⟨n * t + p.val, tile_lt h ht p.isLt⟩)
    (h0 : a 0 = 0 + ∑ p : Fin n, g 0 p) (hs : ∀ k, k + 1 < m → a (k + 1) = a k + ∑ p : Fin n, g (k + 1) p) :
    a (m - 1) = ∑ r : Fin N, f r := by
  rw [acc_last_eq_sum_fin a g m hm h0 hs, ← sum_tiles h f]
  exact Finset.sum_congr rfl fun t _ => Finset.sum_congr rfl fun p _ => hg t.val t.isLt p

/-! ## At 20 tiles of 5000 rows in 100000 -/

/-- Row `p` of block `t` is a row of the array. -/
theorem row_lt {t p : ℕ} (ht : t < 20) (hp : p < 5000) : 5000 * t + p < 100000 := tile_lt (m := 20) (n := 5000) rfl ht hp

/-- The sum over the 100000 rows is the sum over the 20 blocks of the sums over each block's 5000 rows. -/
theorem sum_blocks (f : Fin 100000 → M) :
    ∑ t : Fin 20, ∑ p : Fin 5000, f ⟨5000 * t.val + p.val, row_lt t.isLt p.isLt⟩ = ∑ r : Fin 100000, f r :=
  sum_tiles (m := 20) (n := 5000) rfl f

/-- An accumulator started at zero plus block 0's sum and fed one block's sum per step holds, after the twentieth step,
    the sum over all 100000 rows. -/
theorem acc_blocks (f : Fin 100000 → M) (a : ℕ → M) (g : ℕ → Fin 5000 → M)
    (hg : ∀ (t : ℕ) (ht : t < 20) (p : Fin 5000), g t p = f ⟨5000 * t + p.val, row_lt ht p.isLt⟩)
    (h0 : a 0 = 0 + ∑ p : Fin 5000, g 0 p) (hs : ∀ k, k + 1 < 20 → a (k + 1) = a k + ∑ p : Fin 5000, g (k + 1) p) :
    a 19 = ∑ r : Fin 100000, f r :=
  acc_last_eq_sum (m := 20) (n := 5000) rfl (by decide) f a g hg h0 hs

end Cert.Hand.LibTile
-- ==== Proof.HiddenRegion.lean ====
/-
  The second launch: 100 grid points, each a block of 5000 node rows. It leaves the node table after the first linear
  layer, and, accumulated over the points from a reset at the first, each channel's sum and sum of squares over all nodes.

  The road. At every point the body leaves in the u window's buffer the block (x + G) · W1 + b1 of its four input blocks;
  in the two one-row accumulators it leaves what they held — the zero row at the first point, what the point before left
  at the others — plus the block's column sums, of the values and of their squares. Read at an index, the block of u is
  rows 5000 t … 5000 t + 4999 of the node table after the first layer, so the u window's 100 blocks tile that table, and
  the accumulators after the last point hold zero plus the 100 blocks' column sums, which is each column's sum over all
  500000 rows. The accumulators' one block is written back once, after the last point.
-/
import proofs.«431360_j69028714381387_1_alg».proof.Proof.Gen.KernelIdeal.Frame
import proofs.«431360_j69028714381387_1_alg».proof.Proof.Spec
import proofs.«431360_j69028714381387_1_alg».proof.Proof.LibTile
import proofs.«431360_j69028714381387_1_alg».proof.Proof.LibDotPlain
import Idealize.ShloMosaic.Lib.Pipeline.Value
import Idealize.ShloMosaic.Lib.ValueLayout
import Idealize.ShloMosaic.Lib.Tactic
import Idealize.ShloMosaic.PureOps.Ideal.Laws

set_option maxRecDepth 16384

noncomputable section

open scoped BigOperators

namespace Cert.KernelIdeal.HiddenRegion

open Cert.KernelIdeal Cert.KernelIdeal.Gen Idealize.ShloMosaic Idealize.ShloMosaic.TcCoe Idealize.SL.Sem
open Idealize.ShloMosaic.ValueIdx Cert.PoolNorm
open Idealize.ShloMosaic.Pipeline (Dat Cfg Window)

/-! ## What each case of the body leaves in the three output buffers -/

section Pieces
variable {F : FTy → Type} [FloatOps F]

/-- The zero offsets of a rank-2 and of a rank-1 buffer. -/
private theorem hz2 : (![0, 0] : Fin 2 → Nat) = fun _ => 0 := funext fun a => by fin_cases a <;> rfl
private theorem hz1 : (![0] : Fin 1 → Nat) = fun _ => 0 := funext fun a => by fin_cases a; rfl

/-- At the first point the body leaves in the u window's buffer the block of u of its four input blocks. -/
private theorem piece_A_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond1_0 i)
    (x0 : Vec F S5000x128 .f32) (x1 : Vec F S5000x128 .f32) (x2 : Vec F S128x128 .f32) (x3 : Vec F S128 .f32) :
    out1_A_4 c i arg1 harg1 arg2 harg2 arg3 harg3 arg4 harg4 arg5 harg5 arg6 harg6 arg7 harg7 hc0 x0 x1 x2 x3 = k1_pay3 x0 x1 x2 x3 := by
  unfold out1_A_4
  rw [View.read_writes_eq_canon _ _ _ (cover1_A_4 c i arg1 harg1 arg2 harg2 arg3 harg3 arg4 harg4 arg5 harg5 arg6 harg6 arg7 harg7 hc0 x0 x1 x2 x3)]
  unfold kernelRun1_A
  dsimp only
  sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S1x128) hz2, View.ld_unit_zero (S := S128) hz1]

/-- At the first point it leaves in the sum accumulator the zero row it stored there plus the block's column sums. -/
private theorem piece_A_5 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond1_0 i)
    (x0 : Vec F S5000x128 .f32) (x1 : Vec F S5000x128 .f32) (x2 : Vec F S128x128 .f32) (x3 : Vec F S128 .f32) :
    out1_A_5 c i arg1 harg1 arg2 harg2 arg3 harg3 arg4 harg4 arg5 harg5 arg6 harg6 arg7 harg7 hc0 x0 x1 x2 x3 = k1_pay4 x0 x1 x2 x3 (k1_pay1 (F := F)) := by
  unfold out1_A_5
  rw [View.read_writes_eq_canon _ _ _ (cover1_A_5 c i arg1 harg1 arg2 harg2 arg3 harg3 arg4 harg4 arg5 harg5 arg6 harg6 arg7 harg7 hc0 x0 x1 x2 x3)]
  unfold kernelRun1_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S1x128) hz2, View.ld_unit_zero (S := S128) hz1]

/-- At the first point it leaves in the accumulator of squares the zero row plus the column sums of the block's squares. -/
private theorem piece_A_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond1_0 i)
    (x0 : Vec F S5000x128 .f32) (x1 : Vec F S5000x128 .f32) (x2 : Vec F S128x128 .f32) (x3 : Vec F S128 .f32) :
    out1_A_6 c i arg1 harg1 arg2 harg2 arg3 harg3 arg4 harg4 arg5 harg5 arg6 harg6 arg7 harg7 hc0 x0 x1 x2 x3 = k1_pay5 x0 x1 x2 x3 (k1_pay2 (F := F)) := by
  unfold out1_A_6
  rw [View.read_writes_eq_canon _ _ _ (cover1_A_6 c i arg1 harg1 arg2 harg2 arg3 harg3 arg4 harg4 arg5 harg5 arg6 harg6 arg7 harg7 hc0 x0 x1 x2 x3)]
  unfold kernelRun1_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S1x128) hz2, View.ld_unit_zero (S := S128) hz1]

/-- At a later point the body leaves in the u window's buffer the block of u of its four input blocks. -/
private theorem piece_B_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i)
    (x0 : Vec F S5000x128 .f32) (x1 : Vec F S5000x128 .f32) (x2 : Vec F S128x128 .f32) (x3 : Vec F S128 .f32) (xo5 : Vec F S1x128 .f32) (xo6 : Vec F S1x128 .f32) :
    out1_B_4 c i arg1 harg1 arg2 harg2 arg3 harg3 arg4 harg4 arg5 harg5 arg6 harg6 arg7 harg7 hc0 x0 x1 x2 x3 xo5 xo6 = k1_pay3 x0 x1 x2 x3 := by
  unfold out1_B_4
  rw [View.read_writes_eq_canon _ _ _ (cover1_B_4 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S1x128) hz2, View.ld_unit_zero (S := S128) hz1]

/-- At a later point it leaves in the sum accumulator what the buffer held plus the block's column sums. -/
private theorem piece_B_5 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i)
    (x0 : Vec F S5000x128 .f32) (x1 : Vec F S5000x128 .f32) (x2 : Vec F S128x128 .f32) (x3 : Vec F S128 .f32) (xo5 : Vec F S1x128 .f32) (xo6 : Vec F S1x128 .f32) :
    out1_B_5 c i arg1 harg1 arg2 harg2 arg3 harg3 arg4 harg4 arg5 harg5 arg6 harg6 arg7 harg7 hc0 x0 x1 x2 x3 xo5 xo6 = k1_pay4 x0 x1 x2 x3 xo5 := by
  unfold out1_B_5
  rw [View.read_writes_eq_canon _ _ _ (cover1_B_5 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S1x128) hz2, View.ld_unit_zero (S := S128) hz1]

/-- At a later point it leaves in the accumulator of squares what the buffer held plus the column sums of the block's squares. -/
private theorem piece_B_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i)
    (x0 : Vec F S5000x128 .f32) (x1 : Vec F S5000x128 .f32) (x2 : Vec F S128x128 .f32) (x3 : Vec F S128 .f32) (xo5 : Vec F S1x128 .f32) (xo6 : Vec F S1x128 .f32) :
    out1_B_6 c i arg1 harg1 arg2 harg2 arg3 harg3 arg4 harg4 arg5 harg5 arg6 harg6 arg7 harg7 hc0 x0 x1 x2 x3 xo5 xo6 = k1_pay5 x0 x1 x2 x3 xo6 := by
  unfold out1_B_6
  rw [View.read_writes_eq_canon _ _ _ (cover1_B_6 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S1x128) hz2, View.ld_unit_zero (S := S128) hz1]

end Pieces

/-! ## The body's arithmetic read at an index, over the extended reals -/

section Payloads

/-- A sum down the rows of an [n, 128] table, column by column: at column q it is the plain sum over the rows. -/
private theorem rowsum_apply (src : FVec Ideal S5000x128 .f32) (h : S5000x128.Reduces [0] S128) (hφ : FKind.Formats .f32)
    (hacc : (0x00000000#32 : BitVec (FTy.bits .f32)) = FKind.add.neutral .f32 hφ) (q : Fin 128) :
    multiReduction .add [0] S128 src 0x00000000#32 h hφ hacc (ix1 q) = ∑ p : Fin 5000, src (ix2 p q) := by
  refine (Ideal.multiReduction_add_single src _ h hφ hacc (ix1 q)).trans ?_
  show ∑ p : Fin 5000, src (h.lift (ix1 q) p) = _
  refine Finset.sum_congr rfl fun p _ => congrArg src ?_
  funext a; apply Fin.ext
  match a with
  | ⟨0, _⟩ => rfl
  | ⟨1, _⟩ => rfl

/-- The block of u at (p, q): row p of x + G against column q of W1, plus b1 at q. -/
private theorem pay3_apply (x0 x1 : Vec Ideal S5000x128 .f32) (W : Vec Ideal S128x128 .f32) (b : Vec Ideal S128 .f32) (p : Fin 5000) (q : Fin 128) :
    k1_pay3 x0 x1 W b (ix2 p q) = (∑ k : Fin 128, (x0 (ix2 p k) + x1 (ix2 p k)) * W (ix2 k q)) + b (ix1 q) := by
  unfold k1_pay3
  refine (addf_apply _ _ (ix2 p q)).trans ?_
  refine congrArg₂ (· + ·) ?_ ?_
  · refine (Cert.LibDotPlain.matmul_zero_apply _ none _ _ p q).trans ?_
    refine Finset.sum_congr rfl fun k _ => ?_
    rw [truncf_apply, truncf_apply, addf_apply, shapeCast_self]
  · exact (broadcastTo_1b_ab_apply _ _ p q).trans (shapeCast_a_1a_apply b _ 0 q)

/-- The new sum accumulator at column q: the old one plus the block's column sum. -/
private theorem pay4_apply (x0 x1 : Vec Ideal S5000x128 .f32) (W : Vec Ideal S128x128 .f32) (b : Vec Ideal S128 .f32) (acc : Vec Ideal S1x128 .f32)
    (u : Fin 1) (q : Fin 128) :
    k1_pay4 x0 x1 W b acc (ix2 u q) = acc (ix2 u q) + ∑ p : Fin 5000, k1_pay3 x0 x1 W b (ix2 p q) := by
  unfold k1_pay4
  refine (addf_apply _ _ (ix2 u q)).trans ?_
  refine congrArg₂ (· + ·) ?_ ?_
  · rw [shapeCast_self]
  · exact (shapeCast_a_1a_apply _ _ u q).trans (rowsum_apply _ _ _ _ q)

/-- The new accumulator of squares at column q: the old one plus the column sum of the block's squares. -/
private theorem pay5_apply (x0 x1 : Vec Ideal S5000x128 .f32) (W : Vec Ideal S128x128 .f32) (b : Vec Ideal S128 .f32) (acc : Vec Ideal S1x128 .f32)
    (u : Fin 1) (q : Fin 128) :
    k1_pay5 x0 x1 W b acc (ix2 u q) = acc (ix2 u q) + ∑ p : Fin 5000, k1_pay3 x0 x1 W b (ix2 p q) * k1_pay3 x0 x1 W b (ix2 p q) := by
  unfold k1_pay5
  refine (addf_apply _ _ (ix2 u q)).trans ?_
  refine congrArg₂ (· + ·) ?_ ?_
  · rw [shapeCast_self]
  · refine (shapeCast_a_1a_apply _ _ u q).trans ((rowsum_apply _ _ _ _ q).trans ?_)
    rfl

/-- The two rows the first point stores into the accumulators are zero everywhere. -/
private theorem pay1_apply (j : S1x128.Idx) : k1_pay1 (F := Ideal) j = 0 := by
  unfold k1_pay1
  exact Ideal.ofBits_zero_f32

private theorem pay2_apply (j : S1x128.Idx) : k1_pay2 (F := Ideal) j = 0 := by
  unfold k1_pay2
  exact Ideal.ofBits_zero_f32

end Payloads

/-! ## The input blocks as rows of their arrays -/

section Blocks

variable (V : (c : Dev nD) → (b : Ref sig .tc) → Buf (Elt Ideal) ((c : Thread nD τ).loc b))

/-- The four input blocks at a point: 5000 rows of x and of the gathered table, the weight matrix, the bias vector. -/
private abbrev xb (c : Dev nD) (t : Fin cfg1.N) : Vec Ideal S5000x128 .f32 := iblk1 V c 0 t
private abbrev gb (c : Dev nD) (t : Fin cfg1.N) : Vec Ideal S5000x128 .f32 := iblk1 V c 1 t
private abbrev wb (c : Dev nD) (t : Fin cfg1.N) : Vec Ideal S128x128 .f32 := iblk1 V c 2 t
private abbrev bb (c : Dev nD) (t : Fin cfg1.N) : Vec Ideal S128 .f32 := iblk1 V c 3 t

/-- Where each window's block sits at point t: the three row-blocked windows at block t on the rows and block 0 on the
    columns; the weight, the bias and the two accumulators at block 0 throughout. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row p of the block of x at point t is row 5000 t + p of x. -/
private theorem xb_apply (c : Dev nD) (t : Fin cfg1.N) (p : Fin 5000) (k : Fin 128) (hr : 5000 * t.val + p.val < 500000) :
    xb V c t (ix2 p k) = (V c main_arg0 : SN.Idx → EReal) (ix2 ⟨5000 * t.val + p.val, hr⟩ k) := by
  obtain ⟨e0, e1, -⟩ := idx_facts t
  unfold xb iblk1
  rw [View.read_apply]
  show V c main_arg0 _ = V c main_arg0 _
  congr 1
  funext a; apply Fin.ext
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- Row p of the block of the gathered table at point t is its row 5000 t + p. -/
private theorem gb_apply (c : Dev nD) (t : Fin cfg1.N) (p : Fin 5000) (k : Fin 128) (hr : 5000 * t.val + p.val < 500000) :
    gb V c t (ix2 p k) = (V c main_v4 : SN.Idx → EReal) (ix2 ⟨5000 * t.val + p.val, hr⟩ k) := by
  obtain ⟨-, -, e0, e1, -⟩ := idx_facts t
  unfold gb iblk1
  rw [View.read_apply]
  show V c main_v4 _ = V c main_v4 _
  congr 1
  funext a; apply Fin.ext
  match a with
  | ⟨0, _⟩ => show win1_1.index t (0 : Fin 2) * 5000 + 1 * p.val = 5000 * t.val + p.val; rw [e0]; omega
  | ⟨1, _⟩ => show win1_1.index t (1 : Fin 2) * 128 + 1 * k.val = k.val; rw [e1]; omega

/-- The weight window's one block is the whole matrix. -/
private theorem wb_apply (c : Dev nD) (t : Fin cfg1.N) (k q : Fin 128) :
    wb V c t (ix2 k q) = (V c main_arg7 : SW.Idx → EReal) (ix2 k q) := by
  obtain ⟨-, -, -, -, e0, e1, -⟩ := idx_facts t
  unfold wb iblk1
  rw [View.read_apply]
  show V c main_arg7 _ = V c main_arg7 _
  congr 1
  funext a; apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The bias window's one block is the whole vector. -/
private theorem bb_apply (c : Dev nD) (t : Fin cfg1.N) (q : Fin 128) :
    bb V c t (ix1 q) = (V c main_arg8 : SC.Idx → EReal) (ix1 q) := by
  obtain ⟨-, -, -, -, -, -, e0, -⟩ := idx_facts t
  unfold bb iblk1
  rw [View.read_apply]
  show V c main_arg8 _ = V c main_arg8 _
  congr 1
  funext a; apply Fin.ext
  match a with
  | ⟨0, _⟩ => show win1_3.index t (0 : Fin 1) * 128 + 1 * q.val = q.val; rw [e0]; omega

end Blocks

/-! ## The three output buffers after a point -/

section Points

variable (V : (c : Dev nD) → (b : Ref sig .tc) → Buf (Elt Ideal) ((c : Thread nD τ).loc b))

/-- The node table after the first linear layer, of the arrays the launch finds. -/
private abbrev hid (c : Dev nD) : Fin 500000 → Fin 128 → EReal :=
  hidden (V c main_arg0) (V c main_v4) (V c main_arg7) (V c main_arg8)

/-- The block of u a point computes is rows 5000 t … 5000 t + 4999 of the node table after the first layer. -/
private theorem ublk_apply (c : Dev nD) (t : Fin cfg1.N) (p : Fin 5000) (q : Fin 128) (hr : 5000 * t.val + p.val < 500000) :
    k1_pay3 (xb V c t) (gb V c t) (wb V c t) (bb V c t) (ix2 p q) = hid V c ⟨5000 * t.val + p.val, hr⟩ q := by
  refine (pay3_apply (xb V c t) (gb V c t) (wb V c t) (bb V c t) p q).trans ?_
  unfold hid Cert.PoolNorm.hidden
  refine congrArg₂ (· + ·) (Finset.sum_congr rfl fun k _ => ?_) (bb_apply V c t q)
  rw [xb_apply V c t p k hr, gb_apply V c t p k hr, wb_apply V c t k q]

/-- Whatever the point, the u window's buffer is left at the block of u. -/
private theorem outs_u (c : Dev nD) (t : Fin cfg1.N) :
    (outsAt1 V c t.val t.isLt).1 = k1_pay3 (xb V c t) (gb V c t) (wb V c t) (bb V c t) := by
  by_cases h0 : t.val % 100 = 0
  · rw [outsAt1_A V c t h0]; dsimp only
    exact piece_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)
  · rw [outsAt1_B V c t h0]; dsimp only
    exact piece_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

/-- The first point leaves the sum accumulator at the zero vector plus its block's column sums. -/
private theorem outs_s_first (c : Dev nD) (t : Fin cfg1.N) (h0 : t.val % 100 = 0) :
    (outsAt1 V c t.val t.isLt).2.1 = k1_pay4 (xb V c t) (gb V c t) (wb V c t) (bb V c t) (k1_pay1 (F := Ideal)) := by
  rw [outsAt1_A V c t h0]; dsimp only
  exact piece_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)

/-- A later point leaves it at what the point before left plus its block's column sums. -/
private theorem outs_s_later (c : Dev nD) (t : Fin cfg1.N) (h0 : ¬t.val % 100 = 0) :
    (outsAt1 V c t.val t.isLt).2.1 = k1_pay4 (xb V c t) (gb V c t) (wb V c t) (bb V c t) (outsAt1 V c (t.val - 1) (Nat.lt_of_le_of_lt (Nat.sub_le _ _) t.isLt)).2.1 := by
  rw [outsAt1_B V c t h0]; dsimp only
  exact piece_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

/-- The same for the accumulator of squares. -/
private theorem outs_q_first (c : Dev nD) (t : Fin cfg1.N) (h0 : t.val % 100 = 0) :
    (outsAt1 V c t.val t.isLt).2.2 = k1_pay5 (xb V c t) (gb V c t) (wb V c t) (bb V c t) (k1_pay2 (F := Ideal)) := by
  rw [outsAt1_A V c t h0]; dsimp only
  exact piece_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)

private theorem outs_q_later (c : Dev nD) (t : Fin cfg1.N) (h0 : ¬t.val % 100 = 0) :
    (outsAt1 V c t.val t.isLt).2.2 = k1_pay5 (xb V c t) (gb V c t) (wb V c t) (bb V c t) (outsAt1 V c (t.val - 1) (Nat.lt_of_le_of_lt (Nat.sub_le _ _) t.isLt)).2.2 := by
  rw [outsAt1_B V c t h0]; dsimp only
  exact piece_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

end Points

section Arrays

variable (V : (c : Dev nD) → (b : Ref sig .tc) → Buf (Elt Ideal) ((c : Thread nD τ).loc b))

/-- Row p of block t is a row of the node table. -/
private theorem node_row_lt {t p : ℕ} (ht : t < 100) (hp : p < 5000) : 5000 * t + p < 500000 := Cert.Hand.LibTile.tile_lt (m := 100) (n := 5000) rfl ht hp

/-! ### The two accumulators, point by point -/

/-- After the first point the sum accumulator holds zero plus the column sums of block 0. -/
private theorem s_first (c : Dev nD) (u : Fin 1) (q : Fin 128) (h : 0 < cfg1.N) :
    (outsAt1 V c 0 h).2.1 (ix2 u q) = 0 + ∑ p : Fin 5000, hid V c ⟨5000 * 0 + p.val, node_row_lt (by decide) p.isLt⟩ q := by
  refine (congrFun (outs_s_first V c ⟨0, h⟩ rfl) (ix2 u q)).trans ?_
  refine (pay4_apply (xb V c ⟨0, h⟩) (gb V c ⟨0, h⟩) (wb V c ⟨0, h⟩) (bb V c ⟨0, h⟩) (k1_pay1 (F := Ideal)) u q).trans ?_
  exact congrArg₂ (· + ·) (pay1_apply _) (Finset.sum_congr rfl fun p _ => ublk_apply V c ⟨0, h⟩ p q _)

/-- Each later point adds its block's column sums to what the point before left. -/
private theorem s_step (c : Dev nD) (u : Fin 1) (q : Fin 128) (k : ℕ) (h : k + 1 < cfg1.N) (hk : k + 1 < 100) :
    (outsAt1 V c (k + 1) h).2.1 (ix2 u q)
      = (outsAt1 V c k (Nat.lt_of_succ_lt h)).2.1 (ix2 u q) + ∑ p : Fin 5000, hid V c ⟨5000 * (k + 1) + p.val, node_row_lt hk p.isLt⟩ q := by
  have hB : ¬(⟨k + 1, h⟩ : Fin cfg1.N).val % 100 = 0 := by dsimp only; omega
  refine (congrFun (outs_s_later V c ⟨k + 1, h⟩ hB) (ix2 u q)).trans ?_
  refine (pay4_apply (xb V c ⟨k + 1, h⟩) (gb V c ⟨k + 1, h⟩) (wb V c ⟨k + 1, h⟩) (bb V c ⟨k + 1, h⟩) _ u q).trans ?_
  exact congrArg₂ (· + ·) rfl (Finset.sum_congr rfl fun p _ => ublk_apply V c ⟨k + 1, h⟩ p q _)

/-- The same two steps for the accumulator of squares. -/
private theorem q_first (c : Dev nD) (u : Fin 1) (q : Fin 128) (h : 0 < cfg1.N) :
    (outsAt1 V c 0 h).2.2 (ix2 u q)
      = 0 + ∑ p : Fin 5000, hid V c ⟨5000 * 0 + p.val, node_row_lt (by decide) p.isLt⟩ q * hid V c ⟨5000 * 0 + p.val, node_row_lt (by decide) p.isLt⟩ q := by
  refine (congrFun (outs_q_first V c ⟨0, h⟩ rfl) (ix2 u q)).trans ?_
  refine (pay5_apply (xb V c ⟨0, h⟩) (gb V c ⟨0, h⟩) (wb V c ⟨0, h⟩) (bb V c ⟨0, h⟩) (k1_pay2 (F := Ideal)) u q).trans ?_
  exact congrArg₂ (· + ·) (pay2_apply _) (Finset.sum_congr rfl fun p _ => by rw [ublk_apply V c ⟨0, h⟩ p q _])

private theorem q_step (c : Dev nD) (u : Fin 1) (q : Fin 128) (k : ℕ) (h : k + 1 < cfg1.N) (hk : k + 1 < 100) :
    (outsAt1 V c (k + 1) h).2.2 (ix2 u q)
      = (outsAt1 V c k (Nat.lt_of_succ_lt h)).2.2 (ix2 u q)
        + ∑ p : Fin 5000, hid V c ⟨5000 * (k + 1) + p.val, node_row_lt hk p.isLt⟩ q * hid V c ⟨5000 * (k + 1) + p.val, node_row_lt hk p.isLt⟩ q := by
  have hB : ¬(⟨k + 1, h⟩ : Fin cfg1.N).val % 100 = 0 := by dsimp only; omega
  refine (congrFun (outs_q_later V c ⟨k + 1, h⟩ hB) (ix2 u q)).trans ?_
  refine (pay5_apply (xb V c ⟨k + 1, h⟩) (gb V c ⟨k + 1, h⟩) (wb V c ⟨k + 1, h⟩) (bb V c ⟨k + 1, h⟩) _ u q).trans ?_
  exact congrArg₂ (· + ·) rfl (Finset.sum_congr rfl fun p _ => by rw [ublk_apply V c ⟨k + 1, h⟩ p q _])

/-- So after the last point the sum accumulator holds each column's sum over all 500000 rows, -/
private theorem s_last (c : Dev nD) (u : Fin 1) (q : Fin 128) (n : ℕ) (h : n < cfg1.N) (h99 : n = 99) :
    (outsAt1 V c n h).2.1 (ix2 u q) = colSum (hid V c) q := by
  subst h99
  have hN : cfg1.N = 100 := N_1
  have key := Cert.Hand.LibTile.acc_last_eq_sum (m := 100) (n := 5000) (N := 500000) rfl (by decide) (fun r => hid V c r q)
    (fun n => if hn : n < cfg1.N then (outsAt1 V c n hn).2.1 (ix2 u q) else 0)
    (fun t p => if ht : t < 100 then hid V c ⟨5000 * t + p.val, node_row_lt ht p.isLt⟩ q else 0)
    (fun t ht p => dif_pos ht)
    (by rw [dif_pos (by omega : 0 < cfg1.N)]
        simp only [dif_pos (by decide : 0 < 100)]
        exact s_first V c u q _)
    (fun k hk => by
      rw [dif_pos (by omega : k + 1 < cfg1.N), dif_pos (by omega : k < cfg1.N)]
      simp only [dif_pos hk]
      exact s_step V c u q k _ hk)
  rw [dif_pos (by omega : 100 - 1 < cfg1.N)] at key
  exact key

/-- and the accumulator of squares each column's sum of squares. -/
private theorem q_last (c : Dev nD) (u : Fin 1) (q : Fin 128) (n : ℕ) (h : n < cfg1.N) (h99 : n = 99) :
    (outsAt1 V c n h).2.2 (ix2 u q) = colSumSq (hid V c) q := by
  subst h99
  have hN : cfg1.N = 100 := N_1
  have key := Cert.Hand.LibTile.acc_last_eq_sum (m := 100) (n := 5000) (N := 500000) rfl (by decide) (fun r => hid V c r q * hid V c r q)
    (fun n => if hn : n < cfg1.N then (outsAt1 V c n hn).2.2 (ix2 u q) else 0)
    (fun t p => if ht : t < 100 then hid V c ⟨5000 * t + p.val, node_row_lt ht p.isLt⟩ q * hid V c ⟨5000 * t + p.val, node_row_lt ht p.isLt⟩ q else 0)
    (fun t ht p => dif_pos ht)
    (by rw [dif_pos (by omega : 0 < cfg1.N)]
        simp only [dif_pos (by decide : 0 < 100)]
        exact q_first V c u q _)
    (fun k hk => by
      rw [dif_pos (by omega : k + 1 < cfg1.N), dif_pos (by omega : k < cfg1.N)]
      simp only [dif_pos hk]
      exact q_step V c u q k _ hk)
  rw [dif_pos (by omega : 100 - 1 < cfg1.N)] at key
  exact key

end Arrays

section Final

variable (V : (c : Dev nD) → (b : Ref sig .tc) → Buf (Elt Ideal) ((c : Thread nD τ).loc b))

/-! ### The node table after the first layer -/

/-- A table read through the u window's block at point t: row p of the block is the table's row 5000 t + p. -/
private theorem read_u (c : Dev nD) (t : Fin cfg1.N) (f : Fin 500000 → Fin 128 → EReal) (p : Fin 5000) (q : Fin 128)
    (hr : 5000 * t.val + p.val < 500000) :
    ((cfg1.win 4).blk t).view.read (Elt Ideal) (arr2 f) (ix2 p q) = f ⟨5000 * t.val + p.val, hr⟩ q := by
  obtain ⟨-, -, -, -, -, -, -, e0, e1, -⟩ := idx_facts t
  rw [View.read_apply]
  show arr2 f (((cfg1.win 4).blk t).view.emb (ix2 p q)) = f ⟨5000 * t.val + p.val, hr⟩ q
  unfold arr2
  refine congrArg₂ f (Fin.ext ?_) (Fin.ext ?_)
  · show win1_4.index t (0 : Fin 2) * 5000 + 1 * p.val = 5000 * t.val + p.val
    rw [e0]; omega
  · show win1_4.index t (1 : Fin 2) * 128 + 1 * q.val = q.val
    rw [e1]; omega

/-- What a point writes back through the u window is its block of the node table after the first layer. -/
private theorem flushed_u (c : Dev nD) (t : Fin cfg1.N) :
    (dat1 V c).flushed 4 t = ((cfg1.win 4).blk t).view.read (Elt Ideal) (arr2 (hid V c)) := by
  have hN : t.val < 100 := lt_of_lt_of_eq t.isLt N_1
  show (cfg1.win 4).cut (grid1.coords t) ((dat1 V c).after 4 t) = _
  rw [after1_4, outs_u]
  funext j
  obtain ⟨p, q, rfl⟩ : ∃ (p : Fin 5000) (q : Fin 128), j = ix2 p q := ⟨j 0, j 1, eq_ix2 j⟩
  refine Eq.trans ?_ (read_u c t (hid V c) p q (node_row_lt hN p.isLt)).symm
  show k1_pay3 (xb V c t) (gb V c t) (wb V c t) (bb V c t) (ix2 p q) = _
  exact ublk_apply V c t p q _

/-- After the launch the u array is the node table after the first linear layer: its 100 blocks tile it. -/
theorem hidden_arr (c : Dev nD) :
    ((dat1 (F := Ideal) V c).arrAt 4 cfg1.N : SN.Idx → EReal)
      = arr2 (hidden (V c main_arg0) (V c main_v4) (V c main_arg7) (V c main_arg8)) := by
  refine (dat1 V c).arrAt_eq_of_cover 4 (arr2 (hid V c)) (fun t _ => flushed_u V c t) fun i => ?_
  have h0 : (i 0 : Nat) < 500000 := (i 0).isLt
  have h1 : (i 1 : Nat) < 128 := (i 1).isLt
  have hN : cfg1.N = 100 := N_1
  have ht : (i 0 : Nat) / 5000 < cfg1.N := by omega
  obtain ⟨-, -, -, -, -, -, -, e0, e1, -⟩ := idx_facts ⟨(i 0 : Nat) / 5000, ht⟩
  refine ⟨⟨(i 0 : Nat) / 5000, ht⟩, flush1_4 _, ?_⟩
  show i ∈ ((View.whole main_v5_0).slice (win1_4.rect ⟨(i 0 : Nat) / 5000, ht⟩)).set
  rw [View.set_slice_whole, Rect.mem_set_unit]
  intro a
  match a with
  | ⟨0, _⟩ =>
    show win1_4.index ⟨(i 0 : Nat) / 5000, ht⟩ (0 : Fin 2) * 5000 ≤ (i 0 : Nat) ∧ (i 0 : Nat) < win1_4.index ⟨(i 0 : Nat) / 5000, ht⟩ (0 : Fin 2) * 5000 + 5000
    rw [e0]; dsimp only; omega
  | ⟨1, _⟩ =>
    show win1_4.index ⟨(i 0 : Nat) / 5000, ht⟩ (1 : Fin 2) * 128 ≤ (i 1 : Nat) ∧ (i 1 : Nat) < win1_4.index ⟨(i 0 : Nat) / 5000, ht⟩ (1 : Fin 2) * 128 + 128
    rw [e1]; omega

/-! ### The two accumulators' arrays: one block, written back once, after the last point -/

/-- A one-row table read through the sum accumulator's one block: column q of the block is the table's column q. -/
private theorem read_s (c : Dev nD) (t : Fin cfg1.N) (f : Fin 128 → EReal) (u : Fin 1) (q : Fin 128) :
    ((cfg1.win 5).blk t).view.read (Elt Ideal) (arr2 fun (_ : Fin 1) q => f q) (ix2 u q) = f q := by
  obtain ⟨-, -, -, -, -, -, -, -, -, e50, e51, e60, e61⟩ := idx_facts t
  rw [View.read_apply]
  show arr2 (fun (_ : Fin 1) q => f q) (((cfg1.win 5).blk t).view.emb (ix2 u q)) = f q
  unfold arr2
  refine congrArg f (Fin.ext ?_)
  show win1_5.index t (1 : Fin 2) * 128 + 1 * q.val = q.val
  rw [e51]; omega

/-- The sum accumulator's one write-back, after the last point, writes each column's sum over all the rows. -/
private theorem flushed_s (c : Dev nD) (t : Fin cfg1.N) (hf : (cfg1.win 5).flush t = true) :
    (dat1 V c).flushed 5 t = ((cfg1.win 5).blk t).view.read (Elt Ideal) (arr2 fun (_ : Fin 1) q => colSum (hid V c) q) := by
  have hN : cfg1.N = 100 := N_1
  have h99 : t.val = 99 := by have := (flush1_5 t).mp hf; have := t.isLt; omega
  show (cfg1.win 5).cut (grid1.coords t) ((dat1 V c).after 5 t) = _
  rw [after1_5]
  funext j
  obtain ⟨u, q, rfl⟩ : ∃ (u : Fin 1) (q : Fin 128), j = ix2 u q := ⟨j 0, j 1, eq_ix2 j⟩
  refine Eq.trans ?_ (read_s c t (colSum (hid V c)) u q).symm
  show (outsAt1 V c t.val t.isLt).2.1 (ix2 u q) = _
  exact s_last V c u q t.val t.isLt h99

/-- After the launch the sum accumulator's array holds each column's sum of the node table after the first layer. -/
theorem sum_arr (c : Dev nD) :
    ((dat1 (F := Ideal) V c).arrAt 5 cfg1.N : (⟨2, ![1, 128]⟩ : Shape).Idx → EReal)
      = arr2 fun (_ : Fin 1) q => colSum (hidden (V c main_arg0) (V c main_v4) (V c main_arg7) (V c main_arg8)) q := by
  refine (dat1 V c).arrAt_eq_of_cover 5 (arr2 fun (_ : Fin 1) q => colSum (hid V c) q) (flushed_s V c) fun i => ?_
  have h0 : (i 0 : Nat) < 1 := (i 0).isLt
  have h1 : (i 1 : Nat) < 128 := (i 1).isLt
  have hN : cfg1.N = 100 := N_1
  have ht : 99 < cfg1.N := lt_of_lt_of_eq (by decide : 99 < 100) hN.symm
  obtain ⟨-, -, -, -, -, -, -, -, -, e50, e51, e60, e61⟩ := idx_facts ⟨99, ht⟩
  refine ⟨⟨99, ht⟩, (flush1_5 _).mpr rfl, ?_⟩
  show i ∈ ((View.whole main_v5_1).slice (win1_5.rect ⟨99, ht⟩)).set
  rw [View.set_slice_whole, Rect.mem_set_unit]
  intro a
  match a with
  | ⟨0, _⟩ =>
    show win1_5.index ⟨99, ht⟩ (0 : Fin 2) * 1 ≤ (i 0 : Nat) ∧ (i 0 : Nat) < win1_5.index ⟨99, ht⟩ (0 : Fin 2) * 1 + 1
    rw [e50]; omega
  | ⟨1, _⟩ =>
    show win1_5.index ⟨99, ht⟩ (1 : Fin 2) * 128 ≤ (i 1 : Nat) ∧ (i 1 : Nat) < win1_5.index ⟨99, ht⟩ (1 : Fin 2) * 128 + 128
    rw [e51]; omega

/-- The same through the block of the accumulator of squares. -/
private theorem read_q (c : Dev nD) (t : Fin cfg1.N) (f : Fin 128 → EReal) (u : Fin 1) (q : Fin 128) :
    ((cfg1.win 6).blk t).view.read (Elt Ideal) (arr2 fun (_ : Fin 1) q => f q) (ix2 u q) = f q := by
  obtain ⟨-, -, -, -, -, -, -, -, -, e50, e51, e60, e61⟩ := idx_facts t
  rw [View.read_apply]
  show arr2 (fun (_ : Fin 1) q => f q) (((cfg1.win 6).blk t).view.emb (ix2 u q)) = f q
  unfold arr2
  refine congrArg f (Fin.ext ?_)
  show win1_6.index t (1 : Fin 2) * 128 + 1 * q.val = q.val
  rw [e61]; omega

/-- The accumulator of squares' one write-back writes each column's sum of squares. -/
private theorem flushed_q (c : Dev nD) (t : Fin cfg1.N) (hf : (cfg1.win 6).flush t = true) :
    (dat1 V c).flushed 6 t = ((cfg1.win 6).blk t).view.read (Elt Ideal) (arr2 fun (_ : Fin 1) q => colSumSq (hid V c) q) := by
  have hN : cfg1.N = 100 := N_1
  have h99 : t.val = 99 := by have := (flush1_6 t).mp hf; have := t.isLt; omega
  show (cfg1.win 6).cut (grid1.coords t) ((dat1 V c).after 6 t) = _
  rw [after1_6]
  funext j
  obtain ⟨u, q, rfl⟩ : ∃ (u : Fin 1) (q : Fin 128), j = ix2 u q := ⟨j 0, j 1, eq_ix2 j⟩
  refine Eq.trans ?_ (read_q c t (colSumSq (hid V c)) u q).symm
  show (outsAt1 V c t.val t.isLt).2.2 (ix2 u q) = _
  exact q_last V c u q t.val t.isLt h99

/-- After the launch the other accumulator's array holds each column's sum of squares. -/
theorem sumsq_arr (c : Dev nD) :
    ((dat1 (F := Ideal) V c).arrAt 6 cfg1.N : (⟨2, ![1, 128]⟩ : Shape).Idx → EReal)
      = arr2 fun (_ : Fin 1) q => colSumSq (hidden (V c main_arg0) (V c main_v4) (V c main_arg7) (V c main_arg8)) q := by
  refine (dat1 V c).arrAt_eq_of_cover 6 (arr2 fun (_ : Fin 1) q => colSumSq (hid V c) q) (flushed_q V c) fun i => ?_
  have h0 : (i 0 : Nat) < 1 := (i 0).isLt
  have h1 : (i 1 : Nat) < 128 := (i 1).isLt
  have hN : cfg1.N = 100 := N_1
  have ht : 99 < cfg1.N := lt_of_lt_of_eq (by decide : 99 < 100) hN.symm
  obtain ⟨-, -, -, -, -, -, -, -, -, e50, e51, e60, e61⟩ := idx_facts ⟨99, ht⟩
  refine ⟨⟨99, ht⟩, (flush1_6 _).mpr rfl, ?_⟩
  show i ∈ ((View.whole main_v5_2).slice (win1_6.rect ⟨99, ht⟩)).set
  rw [View.set_slice_whole, Rect.mem_set_unit]
  intro a
  match a with
  | ⟨0, _⟩ =>
    show win1_6.index ⟨99, ht⟩ (0 : Fin 2) * 1 ≤ (i 0 : Nat) ∧ (i 0 : Nat) < win1_6.index ⟨99, ht⟩ (0 : Fin 2) * 1 + 1
    rw [e60]; omega
  | ⟨1, _⟩ =>
    show win1_6.index ⟨99, ht⟩ (1 : Fin 2) * 128 ≤ (i 1 : Nat) ∧ (i 1 : Nat) < win1_6.index ⟨99, ht⟩ (1 : Fin 2) * 128 + 128
    rw [e61]; omega

end Final

end Cert.KernelIdeal.HiddenRegion
end
-- ==== Proof.OutRegion.lean ====
/-
  The third launch: 100 independent grid points, each a block of 5000 node rows: the rectified scale-and-shift of the
  node table against the last matrix, plus its bias.

  First the body's arithmetic read at one place of a block; then each window's block as rows of its array (the node
  table's block at point t is rows 5000 t … 5000 t + 4999, the scale, the shift, the matrix and the bias are read
  whole); then what a point writes back as the block of the result, and the 100 blocks tiling the table.
-/
import proofs.«431360_j69028714381387_1_alg».proof.Proof.Gen.KernelIdeal.Frame
import proofs.«431360_j69028714381387_1_alg».proof.Proof.Spec
import proofs.«431360_j69028714381387_1_alg».proof.Proof.LibDotPlain
import Idealize.ShloMosaic.Lib.ValueLayout
import Idealize.ShloMosaic.Lib.Pipeline.Value

set_option maxRecDepth 16384

noncomputable section

open scoped BigOperators

namespace Cert.KernelIdeal.OutRegion

open Cert.KernelIdeal Cert.KernelIdeal.Gen Idealize.ShloMosaic Idealize.ShloMosaic.TcCoe Idealize.SL.Sem
open Idealize.ShloMosaic.ValueIdx Cert.PoolNorm
open Idealize.ShloMosaic.Pipeline (Dat Cfg Window)

/-! ## The body's arithmetic at a place -/

/-- The matrix product of a [5000, 128] block with a [128, 128] matrix from the zero accumulator, entry (p, q). -/
private theorem prod_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) :=
  Cert.LibDotPlain.matmul_zero_apply dot_S5000x128_S128x128_S5000x128_1_0_0_1_n_n_wf none A B p q

/-- A channel vector laid as one row and repeated down 5000 rows reads, at (p, q), its entry q. -/
private theorem row_apply (v : Vec Ideal S128 .f32) (p : Fin 5000) (q : Fin 128) :
    broadcastTo S5000x128 (shapeCast S1x128 v shapeCasts_S128_S1x128) broadcasts_S1x128_S5000x128 (ix2 p q) = v (ix1 q) := by
  rw [broadcastTo_1b_ab_apply, shapeCast_a_1a_apply]

/-- The body's arithmetic at (p, q): the rectified scale-and-shift of row p against column q of the matrix, plus the
    bias's entry q. -/
private theorem pay_apply (v0 : Vec Ideal S5000x128 .f32) (v2 v7 : Vec Ideal S128 .f32) (v15 : Vec Ideal S128x128 .f32)
    (v18 : Vec Ideal S128 .f32) (p : Fin 5000) (q : Fin 128) :
    (k2_pay1 v0 v2 v7 v15 v18 (ix2 p q) : EReal)
      = (∑ k : Fin 128, max (v0 (ix2 p k) * v2 (ix1 k) + v7 (ix1 k)) 0 * v15 (ix2 k q)) + v18 (ix1 q) := by
  unfold k2_pay1
  rw [addf_apply, row_apply, prod_apply]
  refine congrArg (· + v18 (ix1 q)) (Finset.sum_congr rfl fun k _ => ?_)
  rw [truncf_apply, truncf_apply, maximumf_apply, addf_apply, mulf_apply, shapeCast_self, shapeCast_self, row_apply,
    shapeCast_self, row_apply, broadcast_apply]
  show max _ (Ideal.ofBits .f32 0x00000000#32) * _ = _
  rw [Ideal.ofBits_zero_f32]

/-! ## The windows' blocks as rows of their arrays -/

variable (V : (c : Dev nD) → (b : Ref sig .tc) → Buf (Elt Ideal) ((c : Thread nD τ).loc b))

private theorem zeros2 : (![0, 0] : Fin 2 → Nat) = fun _ => 0 := funext fun a => by fin_cases a <;> rfl

private theorem zeros1 : (![0] : Fin 1 → Nat) = fun _ => 0 := funext fun a => by fin_cases a; rfl

/-- The printed index maps over the 100 points: the two row-blocked windows sit at block (t, 0), the four whole windows
    at block zero. -/
private theorem idx_facts : ∀ t : Fin cfg2.N, win2_0.index t (0 : Fin 2) = t.val ∧ win2_0.index t (1 : Fin 2) = 0
    ∧ win2_1.index t (0 : Fin 1) = 0 ∧ win2_2.index t (0 : Fin 1) = 0
    ∧ win2_3.index t (0 : Fin 2) = 0 ∧ win2_3.index t (1 : Fin 2) = 0 ∧ win2_4.index t (0 : Fin 1) = 0
    ∧ win2_5.index t (0 : Fin 2) = t.val ∧ win2_5.index t (1 : Fin 2) = 0 :=
  (by decide +kernel : ∀ t : Fin grid2.N, _)

/-- The node block at point t is rows 5000 t … 5000 t + 4999 of the node table. -/
private theorem blk0_apply (c : Dev nD) (t : Fin cfg2.N) (y : S5000x128.Idx) (i : SN.Idx)
    (h0 : (i 0).val = 5000 * t.val + (y 0).val) (h1 : (i 1).val = (y 1).val) :
    (iblk2 V c 0 t : Vec Ideal S5000x128 .f32) y = (V c main_v5_0 : SN.Idx → EReal) i := by
  obtain ⟨e0, e1, -⟩ := idx_facts t
  unfold iblk2
  rw [View.read_apply]
  show V c main_v5_0 _ = V c main_v5_0 _
  congr 1
  funext a
  apply Fin.ext
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-- The four whole windows read their arrays themselves at every point. -/
private theorem blk1_eq (c : Dev nD) (t : Fin cfg2.N) : (iblk2 V c 1 t : Vec Ideal S128 .f32) = (V c main_v17 : SC.Idx → EReal) := by
  obtain ⟨-, -, e, -⟩ := idx_facts t
  funext y
  unfold iblk2
  rw [View.read_apply]
  show V c main_v17 _ = V c main_v17 _
  congr 1
  funext a
  apply Fin.ext
  match a with
  | ⟨0, _⟩ => show win2_1.index t 0 * 128 + 1 * (y 0).val = (y 0).val; rw [e]; omega

private theorem blk2_eq (c : Dev nD) (t : Fin cfg2.N) : (iblk2 V c 2 t : Vec Ideal S128 .f32) = (V c main_v20 : SC.Idx → EReal) := by
  obtain ⟨-, -, -, e, -⟩ := idx_facts t
  funext y
  unfold iblk2
  rw [View.read_apply]
  show V c main_v20 _ = V c main_v20 _
  congr 1
  funext a
  apply Fin.ext
  match a with
  | ⟨0, _⟩ => show win2_2.index t 0 * 128 + 1 * (y 0).val = (y 0).val; rw [e]; omega

private theorem blk3_eq (c : Dev nD) (t : Fin cfg2.N) : (iblk2 V c 3 t : Vec Ideal S128x128 .f32) = (V c main_arg11 : SW.Idx → EReal) := by
  obtain ⟨-, -, -, -, e0, e1, -⟩ := idx_facts t
  funext y
  unfold iblk2
  rw [View.read_apply]
  show V c main_arg11 _ = V c main_arg11 _
  congr 1
  funext a
  apply Fin.ext
  match a with
  | ⟨0, _⟩ => show win2_3.index t 0 * 128 + 1 * (y 0).val = (y 0).val; rw [e0]; omega
  | ⟨1, _⟩ => show win2_3.index t 1 * 128 + 1 * (y 1).val = (y 1).val; rw [e1]; omega

private theorem blk4_eq (c : Dev nD) (t : Fin cfg2.N) : (iblk2 V c 4 t : Vec Ideal S128 .f32) = (V c main_arg12 : SC.Idx → EReal) := by
  obtain ⟨-, -, -, -, -, -, e, -⟩ := idx_facts t
  funext y
  unfold iblk2
  rw [View.read_apply]
  show V c main_arg12 _ = V c main_arg12 _
  congr 1
  funext a
  apply Fin.ext
  match a with
  | ⟨0, _⟩ => show win2_4.index t 0 * 128 + 1 * (y 0).val = (y 0).val; rw [e]; omega

/-! ## From the blocks to the table -/

/-- The result at node row r, channel s, written out. -/
private theorem affineOut_ix2 (U : SN.Idx → EReal) (sc sh : SC.Idx → EReal) (W2 : SW.Idx → EReal) (b2 : SC.Idx → EReal)
    (r : Fin 500000) (s : Fin 128) :
    affineOut U sc sh W2 b2 (ix2 r s)
      = (∑ k : Fin 128, max (U (ix2 r k) * sc (ix1 k) + sh (ix1 k)) 0 * W2 (ix2 k s)) + b2 (ix1 s) := rfl

/-- What the body computes at a place of point t's block is the result at the node row that place stands for. -/
private theorem point_eq (c : Dev nD) (t : Fin cfg2.N) (j : S5000x128.Idx) (i : SN.Idx)
    (h0 : (i 0).val = 5000 * t.val + (j 0).val) (h1 : (i 1).val = (j 1).val) :
    (k2_pay1 (iblk2 V c 0 t) (iblk2 V c 1 t) (iblk2 V c 2 t) (iblk2 V c 3 t) (iblk2 V c 4 t) j : EReal)
      = affineOut (V c main_v5_0) (V c main_v17) (V c main_v20) (V c main_arg11) (V c main_arg12) i := by
  obtain ⟨p, q, rfl⟩ : ∃ (p : Fin 5000) (q : Fin 128), j = ix2 p q := ⟨j 0, j 1, eq_ix2 j⟩
  obtain ⟨r, s, rfl⟩ : ∃ (r : Fin 500000) (s : Fin 128), i = ix2 r s := ⟨i 0, i 1, eq_ix2 i⟩
  obtain rfl : s = q := Fin.ext h1
  refine (pay_apply (iblk2 V c 0 t) (iblk2 V c 1 t) (iblk2 V c 2 t) (iblk2 V c 3 t) (iblk2 V c 4 t) p s).trans ?_
  rw [blk1_eq, blk2_eq, blk3_eq, blk4_eq]
  rw [affineOut_ix2]
  refine congrArg (fun x : EReal => x + _) (Finset.sum_congr rfl fun k _ => ?_)
  rw [blk0_apply V c t (ix2 p k) (ix2 r k) h0 rfl]

/-- What point t writes back is block t of the result. -/
private theorem flushed_eq (c : Dev nD) (t : Fin cfg2.N) :
    (dat2 (F := Ideal) V c).flushed 5 t
      = ((cfg2.win 5).blk t).view.read (Elt Ideal)
          (affineOut (V c main_v5_0) (V c main_v17) (V c main_v20) (V c main_arg11) (V c main_arg12)) := by
  show (cfg2.win 5).cut (grid2.coords t) ((dat2 V c).after 5 t) = _
  rw [after2_5]
  unfold out2_5
  rw [View.canon_unit_zero zeros2]
  simp only [View.ld_unit_zero (S := S5000x128) zeros2, View.ld_unit_zero (S := S128) zeros1,
    View.ld_unit_zero (S := S128x128) zeros2]
  obtain ⟨-, -, -, -, -, -, -, e0, e1⟩ := idx_facts t
  funext j
  rw [View.read_apply]
  refine point_eq V c t j _ ?_ ?_
  · show win2_5.index t 0 * 5000 + 1 * (j 0).val = 5000 * t.val + (j 0).val
    rw [e0]; omega
  · show win2_5.index t 1 * 128 + 1 * (j 1).val = (j 1).val
    rw [e1]; omega

/-- A place of the result lies in point t's block iff each coordinate lies in the block's range on its axis. -/
private theorem mem_blk (t : Fin cfg2.N) (i : SN.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v21).slice (win2_5.rect t)).set ↔ _
  rw [View.set_slice_whole, Rect.mem_set_unit]
  exact Iff.rfl

/-- Node row r lies in the block of point r / 5000: the 100 blocks tile the table. -/
private theorem cover (i : SN.Idx) : ∃ t : Fin cfg2.N, (cfg2.win 5).flush t = true ∧ i ∈ ((cfg2.win 5).blk t).view.set := by
  have hi0 : (i 0).val < 500000 := (i 0).isLt
  have hi1 : (i 1).val < 128 := (i 1).isLt
  have hN : cfg2.N = 100 := N_2
  let t : Fin cfg2.N := ⟨(i 0).val / 5000, by rw [hN]; omega⟩
  obtain ⟨-, -, -, -, -, -, -, e0, e1⟩ := idx_facts t
  have ht : t.val = (i 0).val / 5000 := rfl
  refine ⟨t, flush2_5 t, ?_⟩
  rw [mem_blk]
  intro a
  match a with
  | ⟨0, _⟩ =>
    show win2_5.index t 0 * 5000 ≤ (i 0).val ∧ (i 0).val < win2_5.index t 0 * 5000 + 5000
    rw [e0, ht]; omega
  | ⟨1, _⟩ =>
    show win2_5.index t 1 * 128 ≤ (i 1).val ∧ (i 1).val < win2_5.index t 1 * 128 + 128
    rw [e1]; omega

theorem out_arr (c : Dev nD) :
    ((dat2 (F := Ideal) V c).arrAt 5 cfg2.N : SN.Idx → EReal)
      = affineOut (V c main_v5_0) (V c main_v17) (V c main_v20) (V c main_arg11) (V c main_arg12) :=
  (dat2 (F := Ideal) V c).arrAt_eq_of_cover 5
    (affineOut (V c main_v5_0) (V c main_v17) (V c main_v20) (V c main_arg11) (V c main_arg12))
    (fun t _ => flushed_eq V c t) cover

end Cert.KernelIdeal.OutRegion

end
-- ==== Proof.KernelValue.lean ====
/-
  The kernel's program from its arguments to its result: the buffer contents at each boundary between host operations
  and launches, read back to the argument arrays. The result is the specification's folded form: the last layers over
  the node table after the first linear layer, with the scale and the shift computed from that table's column sums.
-/
import proofs.«431360_j69028714381387_1_alg».proof.Proof.KernelHost
import proofs.«431360_j69028714381387_1_alg».proof.Proof.PoolRegion
import proofs.«431360_j69028714381387_1_alg».proof.Proof.HiddenRegion
import proofs.«431360_j69028714381387_1_alg».proof.Proof.OutRegion

set_option maxRecDepth 16384

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx Cert.PoolNorm
open Idealize.ShloMosaic.Pipeline (Dat Cfg Window)
open Cert.KernelIdeal.HostRead

variable (m : (ℓ : Loc nD τ sig) → Buf (Elt Ideal) ℓ) (ρ : Dev nD → PrngReg)

/-! ## An argument no host operation writes and no launch before the boundary touches is as launched -/

theorem at1 (c : Dev nD) (b : Ref sig .tc) (h0 : b ∉ ([main_cst, main_v0, main_v1, main_v2] : List (Ref sig .tc))) :
    W1 m ρ c (Proc.devRef .tc b) = m ((c : Thread nD τ).loc b) :=
  (host0_keep (W0 m ρ c) b h0).trans rfl

theorem at2 (c : Dev nD) (b : Ref sig .tc) (h0 : b ∉ ([main_cst, main_v0, main_v1, main_v2] : List (Ref sig .tc)))
    (hs0 : ∀ w, Pipeline.arrRef spec0 w ≠ b) :
    W2 m ρ c (Proc.devRef .tc b) = m ((c : Thread nD τ).loc b) :=
  (W2_of_ne m ρ c b hs0).trans (at1 m ρ c b h0)

theorem at3 (c : Dev nD) (b : Ref sig .tc) (h0 : b ∉ ([main_cst, main_v0, main_v1, main_v2] : List (Ref sig .tc)))
    (hs0 : ∀ w, Pipeline.arrRef spec0 w ≠ b)
    (h1 : b ∉ ([main_call0_c, main_call0_v0, main_call0_v1, main_call0_c_0, main_call0_v2, main_call0_v3, main_call0_v4, main_call0_v5,
      main_call0_c_1, main_call0_c_2, main_call0_v6, main_call0_v7, main_call0_v8, main_call0_v9, main_call0_v10, main_call0_v11,
      main_call0_c_3, main_call0_v12, main_call0_v13, main_call0_v14, main_call0_cst, main_call0_v15, main_v4] : List (Ref sig .tc))) :
    W3 m ρ c (Proc.devRef .tc b) = m ((c : Thread nD τ).loc b) :=
  (host1_keep (W2 m ρ c) b h1).trans (at2 m ρ c b h0 hs0)

theorem at4 (c : Dev nD) (b : Ref sig .tc) (h0 : b ∉ ([main_cst, main_v0, main_v1, main_v2] : List (Ref sig .tc)))
    (hs0 : ∀ w, Pipeline.arrRef spec0 w ≠ b)
    (h1 : b ∉ ([main_call0_c, main_call0_v0, main_call0_v1, main_call0_c_0, main_call0_v2, main_call0_v3, main_call0_v4, main_call0_v5,
      main_call0_c_1, main_call0_c_2, main_call0_v6, main_call0_v7, main_call0_v8, main_call0_v9, main_call0_v10, main_call0_v11,
      main_call0_c_3, main_call0_v12, main_call0_v13, main_call0_v14, main_call0_cst, main_call0_v15, main_v4] : List (Ref sig .tc)))
    (hs1 : ∀ w, Pipeline.arrRef spec1 w ≠ b) :
    W4 m ρ c (Proc.devRef .tc b) = m ((c : Thread nD τ).loc b) :=
  (W4_of_ne m ρ c b hs1).trans (at3 m ρ c b h0 hs0 h1)

/-! ## The boundaries, one after the other -/

/-- Entering the first launch: the per-graph sums, and the graph layer's parameters as launched. -/
theorem pooled_in (c : Dev nD) :
    V1 m ρ c main_v2 = pooled (m ((c : Thread nD τ).loc main_arg0)) (m ((c : Thread nD τ).loc main_arg3)) :=
  host0_pooled (W0 m ρ c)

/-- Leaving the first launch: the graph table. -/
theorem graph_table (c : Dev nD) :
    (W2 m ρ c (Proc.devRef .tc main_v3) : SG.Idx → EReal)
      = poolOut (pooled (m ((c : Thread nD τ).loc main_arg0)) (m ((c : Thread nD τ).loc main_arg3))) (m ((c : Thread nD τ).loc main_arg4)) (m ((c : Thread nD τ).loc main_arg5)) (m ((c : Thread nD τ).loc main_arg6)) := by
  refine (W2_arr m ρ c 4).trans ((PoolRegion.pool_arr (V1 m ρ) c).trans ?_)
  rw [pooled_in m ρ c]
  rw [show V1 m ρ c main_arg4 = (m ((c : Thread nD τ).loc main_arg4)) from at1 m ρ c main_arg4 (by decide),
    show V1 m ρ c main_arg5 = (m ((c : Thread nD τ).loc main_arg5)) from at1 m ρ c main_arg5 (by decide),
    show V1 m ρ c main_arg6 = (m ((c : Thread nD τ).loc main_arg6)) from at1 m ρ c main_arg6 (by decide)]

/-- Entering the second launch: every node's graph row. -/
theorem rows_in (c : Dev nD)
    (hr : ∀ i : Fin 500000, 0 ≤ ((m ((c : Thread nD τ).loc main_arg3)) (ix1 i)).toInt ∧ ((m ((c : Thread nD τ).loc main_arg3)) (ix1 i)).toInt < 10000) :
    V3 m ρ c main_v4
      = taken (poolOut (pooled (m ((c : Thread nD τ).loc main_arg0)) (m ((c : Thread nD τ).loc main_arg3))) (m ((c : Thread nD τ).loc main_arg4)) (m ((c : Thread nD τ).loc main_arg5)) (m ((c : Thread nD τ).loc main_arg6)))
          (m ((c : Thread nD τ).loc main_arg3)) := by
  have e3 : W2 m ρ c (Proc.devRef .tc main_arg3) = (m ((c : Thread nD τ).loc main_arg3)) := at2 m ρ c main_arg3 (by decide) (by decide)
  refine (host1_taken (W2 m ρ c) (by rw [e3]; exact hr)).trans ?_
  rw [e3, graph_table m ρ c]

/-- The node table after the first linear layer, as the second launch leaves it. -/
abbrev hid (c : Dev nD) : Fin 500000 → Fin 128 → EReal :=
  hidden (m ((c : Thread nD τ).loc main_arg0))
    (taken (poolOut (pooled (m ((c : Thread nD τ).loc main_arg0)) (m ((c : Thread nD τ).loc main_arg3))) (m ((c : Thread nD τ).loc main_arg4)) (m ((c : Thread nD τ).loc main_arg5)) (m ((c : Thread nD τ).loc main_arg6))) (m ((c : Thread nD τ).loc main_arg3)))
    (m ((c : Thread nD τ).loc main_arg7)) (m ((c : Thread nD τ).loc main_arg8))

theorem hidden_in (c : Dev nD)
    (hr : ∀ i : Fin 500000, 0 ≤ ((m ((c : Thread nD τ).loc main_arg3)) (ix1 i)).toInt ∧ ((m ((c : Thread nD τ).loc main_arg3)) (ix1 i)).toInt < 10000) :
    hidden (V3 m ρ c main_arg0) (V3 m ρ c main_v4) (V3 m ρ c main_arg7) (V3 m ρ c main_arg8) = hid m c := by
  rw [rows_in m ρ c hr,
    show V3 m ρ c main_arg0 = (m ((c : Thread nD τ).loc main_arg0)) from at3 m ρ c main_arg0 (by decide) (by decide) (by decide),
    show V3 m ρ c main_arg7 = (m ((c : Thread nD τ).loc main_arg7)) from at3 m ρ c main_arg7 (by decide) (by decide) (by decide),
    show V3 m ρ c main_arg8 = (m ((c : Thread nD τ).loc main_arg8)) from at3 m ρ c main_arg8 (by decide) (by decide) (by decide)]

/-- THE RESULT: the kernel's result buffer at the last boundary is the folded form of the specification. -/
theorem result_eq (c : Dev nD)
    (hr : ∀ i : Fin 500000, 0 ≤ ((m ((c : Thread nD τ).loc main_arg3)) (ix1 i)).toInt ∧ ((m ((c : Thread nD τ).loc main_arg3)) (ix1 i)).toInt < 10000) :
    (W6 m ρ c (Proc.devRef .tc main_v21) : SN.Idx → EReal)
      = outAffine (hid m c) (m ((c : Thread nD τ).loc main_arg9)) (m ((c : Thread nD τ).loc main_arg10)) (m ((c : Thread nD τ).loc main_arg11)) (m ((c : Thread nD τ).loc main_arg12)) := by
  refine (W6_arr m ρ c 5).trans ((OutRegion.out_arr (V5 m ρ) c).trans ?_)
  have eu : V5 m ρ c main_v5_0 = arr2 (hid m c) :=
    (host2_keep (W4 m ρ c) main_v5_0 (by decide)).trans ((W4_arr m ρ c 4).trans
      ((HiddenRegion.hidden_arr (V3 m ρ) c).trans (congrArg arr2 (hidden_in m ρ c hr))))
  have es : (W4 m ρ c (Proc.devRef .tc main_v5_1) : (⟨2, ![1, 128]⟩ : Shape).Idx → EReal)
      = arr2 fun (_ : Fin 1) q => colSum (hid m c) q :=
    (W4_arr m ρ c 5).trans ((HiddenRegion.sum_arr (V3 m ρ) c).trans (by rw [hidden_in m ρ c hr]))
  have es2 : (W4 m ρ c (Proc.devRef .tc main_v5_2) : (⟨2, ![1, 128]⟩ : Shape).Idx → EReal)
      = arr2 fun (_ : Fin 1) q => colSumSq (hid m c) q :=
    (W4_arr m ρ c 6).trans ((HiddenRegion.sumsq_arr (V3 m ρ) c).trans (by rw [hidden_in m ρ c hr]))
  have e9 : W4 m ρ c (Proc.devRef .tc main_arg9) = (m ((c : Thread nD τ).loc main_arg9)) := at4 m ρ c main_arg9 (by decide) (by decide) (by decide) (by decide)
  have e10 : W4 m ρ c (Proc.devRef .tc main_arg10) = (m ((c : Thread nD τ).loc main_arg10)) := at4 m ρ c main_arg10 (by decide) (by decide) (by decide) (by decide)
  have esc : V5 m ρ c main_v17 = arr1 fun k => foldScale (colSum (hid m c) k) (colSumSq (hid m c) k) ((m ((c : Thread nD τ).loc main_arg9)) (ix1 k)) := by
    refine (host2_scale (W4 m ρ c)).trans ?_
    rw [es, es2, e9]; rfl
  have esh : V5 m ρ c main_v20 = arr1 fun k => foldShift (colSum (hid m c) k) (colSumSq (hid m c) k) ((m ((c : Thread nD τ).loc main_arg9)) (ix1 k)) ((m ((c : Thread nD τ).loc main_arg10)) (ix1 k)) := by
    refine (host2_shift (W4 m ρ c)).trans ?_
    rw [es, es2, e9, e10]; rfl
  have e11 : V5 m ρ c main_arg11 = (m ((c : Thread nD τ).loc main_arg11)) :=
    (host2_keep (W4 m ρ c) main_arg11 (by decide)).trans (at4 m ρ c main_arg11 (by decide) (by decide) (by decide) (by decide))
  have e12 : V5 m ρ c main_arg12 = (m ((c : Thread nD τ).loc main_arg12)) :=
    (host2_keep (W4 m ρ c) main_arg12 (by decide)).trans (at4 m ρ c main_arg12 (by decide) (by decide) (by decide) (by decide))
  rw [eu, esc, esh, e11, e12]
  rfl

end Cert.KernelIdeal.Result

end
-- ==== Proof.LibERealSage.lean ====
import Mathlib.Data.EReal.Basic
import Mathlib.Data.EReal.Operations
import Mathlib.Data.EReal.Inv
import Mathlib.Algebra.BigOperators.Group.Finset.Basic
import Idealize.ShloMosaic.PureOps.Ideal
import Idealize.ShloMosaic.PureOps.Ideal.Laws

/-!
# Finite extended reals, and the algebra of a two-relation mean-aggregating graph layer

General lemmas over `EReal`.

* `IsReal x`: the extended real `x` is (the image of) a real number; closure under the ring
  operations, `max`, finite sums.
* Distributivity `x * (a + b) = x * a + x * b` holds on the finite extended reals (it fails at
  `x = ⊤, a = 1, b = -1`), hence `∑ X (A + B) = ∑ X A + ∑ X B` for finite families.
* Reassociations of the sums that make up one output entry of a layer whose node type has one,
  respectively two, incoming relations.
* Division by a nonzero real is the product with the quotient `1 / r`.
* Gathering from, and scatter-adding into, an everywhere finite array gives an everywhere finite
  array.
-/

namespace Cert.LibERealSage

open Idealize.ShloMosaic

/-! ### Finite extended reals -/

/-- An extended real is *real* (finite) when it is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two real extended reals is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real extended reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The negation of a real extended real is real. -/
theorem isReal_neg {x : EReal} (hx : IsReal x) : IsReal (-x) := by
  obtain ⟨a, rfl⟩ := hx
  exact ⟨-a, (EReal.coe_neg a).symm⟩

/-- The maximum of two real extended reals is real. -/
theorem isReal_max {x y : EReal} (hx : IsReal x) (hy : IsReal y) : IsReal (max x y) := by
  rcases le_total x y with h | h
  · rw [max_eq_right h]; exact hy
  · rw [max_eq_left h]; exact hx

/-- `max x 0` is real when `x` is. -/
theorem isReal_max_zero {x : EReal} (hx : IsReal x) : IsReal (max x 0) :=
  isReal_max hx isReal_zero

/-- A finite sum of real extended reals is real. -/
theorem isReal_sum {ι : Type*} (S : Finset ι) (f : ι → EReal) (h : ∀ i ∈ S, IsReal (f i)) :
    IsReal (∑ i ∈ S, f i) := by
  classical
  induction S using Finset.induction_on with
  | empty => simpa using isReal_zero
  | insert a s ha ih =>
    rw [Finset.sum_insert ha]
    exact isReal_add (h a (Finset.mem_insert_self a s))
      (ih (fun i hi => h i (Finset.mem_insert_of_mem hi)))

/-- A sum over a whole finite type of real extended reals is real. -/
theorem isReal_sum_univ {ι : Type*} [Fintype ι] (f : ι → EReal) (h : ∀ i, IsReal (f i)) :
    IsReal (∑ i, f i) :=
  isReal_sum Finset.univ f (fun i _ => h i)

/-- An extended real is real exactly when it is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    induction x using EReal.rec with
    | bot => exact absurd rfl h2
    | coe r => exact ⟨r, rfl⟩
    | top => exact absurd rfl h1

/-! ### Distributivity on the finite extended reals -/

/-- Multiplication distributes over addition when all three extended reals are real. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add,
    mul_add]

section Families

variable {ι : Type*} [Fintype ι]

/-- A contraction against a sum of two finite families is the sum of the two contractions, when
    the contracted family is finite too. -/
theorem sum_mul_add (X A B : ι → EReal) (hX : ∀ j, IsReal (X j)) (hA : ∀ j, IsReal (A j))
    (hB : ∀ j, IsReal (B j)) :
    ∑ j, X j * (A j + B j) = ∑ j, X j * A j + ∑ j, X j * B j := by
  rw [← Finset.sum_add_distrib]
  exact Finset.sum_congr rfl (fun j _ => mul_add_of_isReal (hX j) (hA j) (hB j))

/-- One output entry of a layer whose node type has ONE incoming relation: the neighbour term,
    the root term and the bias, summed in two different orders. No finiteness is needed. -/
theorem one_rel_entry (A W X R : ι → EReal) (β : EReal) :
    (((0 : EReal) + ∑ j, A j * W j) + ∑ j, X j * ((0 : EReal) + R j)) + ((0 : EReal) + β)
      = ((((0 : EReal) + ∑ j, A j * W j) + β) + ∑ j, X j * R j) := by
  simp only [zero_add]
  rw [add_right_comm]

/-- One output entry of a layer whose node type has TWO incoming relations: on one side the two
    neighbour terms, ONE root term against the sum of the two root matrices and the sum of the
    two biases; on the other side the two relations' (neighbour, bias, root) triples added in
    turn. Needs the root features and the two root matrices finite. -/
theorem two_rel_entry (A1 W1 A2 W2 X R1 R2 : ι → EReal) (β1 β2 : EReal)
    (hX : ∀ j, IsReal (X j)) (hR1 : ∀ j, IsReal (R1 j)) (hR2 : ∀ j, IsReal (R2 j)) :
    ((((0 : EReal) + ∑ j, A1 j * W1 j) + ∑ j, A2 j * W2 j)
        + ∑ j, X j * (((0 : EReal) + R1 j) + R2 j)) + (((0 : EReal) + β1) + β2)
      = ((((((0 : EReal) + ∑ j, A1 j * W1 j) + β1) + ∑ j, X j * R1 j) + ∑ j, A2 j * W2 j) + β2)
        + ∑ j, X j * R2 j := by
  simp only [zero_add]
  rw [sum_mul_add X R1 R2 hX hR1 hR2]
  ac_rfl

/-- `one_rel_entry` under `max · 0`. -/
theorem one_rel_entry_relu (A W X R : ι → EReal) (β : EReal) :
    max ((((0 : EReal) + ∑ j, A j * W j) + ∑ j, X j * ((0 : EReal) + R j)) + ((0 : EReal) + β)) 0
      = max ((((0 : EReal) + ∑ j, A j * W j) + β) + ∑ j, X j * R j) 0 :=
  congrArg (max · 0) (one_rel_entry A W X R β)

/-- `two_rel_entry` under `max · 0`. -/
theorem two_rel_entry_relu (A1 W1 A2 W2 X R1 R2 : ι → EReal) (β1 β2 : EReal)
    (hX : ∀ j, IsReal (X j)) (hR1 : ∀ j, IsReal (R1 j)) (hR2 : ∀ j, IsReal (R2 j)) :
    max (((((0 : EReal) + ∑ j, A1 j * W1 j) + ∑ j, A2 j * W2 j)
        + ∑ j, X j * (((0 : EReal) + R1 j) + R2 j)) + (((0 : EReal) + β1) + β2)) 0
      = max (((((((0 : EReal) + ∑ j, A1 j * W1 j) + β1) + ∑ j, X j * R1 j) + ∑ j, A2 j * W2 j) + β2)
        + ∑ j, X j * R2 j) 0 :=
  congrArg (max · 0) (two_rel_entry A1 W1 A2 W2 X R1 R2 β1 β2 hX hR1 hR2)

end Families

/-! ### Division by a nonzero real -/

/-- Division by a nonzero real is the product with the quotient `1 / r`, at the infinities
    too. -/
theorem div_eq_mul_one_div (s : EReal) {r : ℝ} (hr : r ≠ 0) :
    Idealize.ShloMosaic.Ideal.div s (r : EReal)
      = s * Idealize.ShloMosaic.Ideal.div 1 (r : EReal) := by
  rw [Ideal.div_coe hr, Ideal.div_coe hr, one_mul]

/-- The quotient `1 / r` by a nonzero real is real. -/
theorem isReal_div_one {r : ℝ} (hr : r ≠ 0) :
    IsReal (Idealize.ShloMosaic.Ideal.div 1 (r : EReal)) :=
  ⟨1 / r, by rw [Ideal.div_coe hr, one_mul]⟩

/-- The quotient of a real by a nonzero real is real. -/
theorem isReal_div {s : EReal} (hs : IsReal s) {r : ℝ} (hr : r ≠ 0) :
    IsReal (Idealize.ShloMosaic.Ideal.div s (r : EReal)) := by
  rw [Ideal.div_coe hr]
  exact isReal_mul hs (isReal_coe _)

/-- `max c 1` of a real `c` is a real number that is at least one. -/
theorem isReal_max_one' (c : EReal) (hc : IsReal c) :
    ∃ r : ℝ, 1 ≤ r ∧ max c 1 = (r : EReal) := by
  obtain ⟨a, rfl⟩ := hc
  refine ⟨max a 1, le_max_right a 1, ?_⟩
  rw [← EReal.coe_one]
  exact (EReal.coe_strictMono.monotone.map_max).symm

/-- `max c 1` of a real `c` is a nonzero real number. -/
theorem isReal_max_one (c : EReal) (hc : IsReal c) :
    ∃ r : ℝ, r ≠ 0 ∧ max c 1 = (r : EReal) := by
  obtain ⟨r, h1, h⟩ := isReal_max_one' c hc
  exact ⟨r, by linarith, h⟩

/-! ### Finiteness through a gather and an accumulating scatter -/

/-- Every element of a gather from an everywhere real array is real. -/
theorem isReal_gather {s si t : Shape} {w : Nat} (d : GatherDims s si t) (x : s.Idx → EReal)
    (idx : IVec si w) (hx : ∀ i, IsReal (x i)) :
    ∀ j, IsReal (Host.gather (α := EReal) d x idx j) :=
  fun j => hx (d.operandIdx j idx)

/-- Every element of an accumulating scatter of everywhere real updates into an everywhere real
    array is real. -/
theorem isReal_scatterAdd {φ : FTy} {s si u : Shape} {w : Nat} (d : ScatterDims s si u)
    (x : FVec Ideal s φ) (idx : IVec si w) (upd : FVec Ideal u φ)
    (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact isReal_add (hx i) (isReal_sum _ _ (fun j _ => hu j))

end Cert.LibERealSage
-- ==== Proof.Laws.lean ====
/-
  The laws between the definitions of the specification: the folded normalisation is the normalisation from the centred
  squares wherever the table is finite, and the tables of the first layers are finite when their inputs are.
-/
import Mathlib.Algebra.BigOperators.Ring.Finset
import Mathlib.Algebra.Order.BigOperators.Group.Finset
import Mathlib.Analysis.SpecialFunctions.Sqrt
import Mathlib.Tactic.Ring
import Mathlib.Tactic.FieldSimp
import Mathlib.Tactic.Positivity
import Mathlib.Tactic.NormNum
import proofs.«431360_j69028714381387_1_alg».proof.Proof.Spec
import proofs.«431360_j69028714381387_1_alg».proof.Proof.LibERealSage

noncomputable section

open scoped BigOperators

namespace Cert.PoolNorm

open Idealize.ShloMosaic Idealize.ShloMosaic.ValueIdx Cert.LibERealSage

/-! ### The three constants as reals -/

/-- The node count is the real 500000. -/
private theorem cntN_eq : cntN = ((500000 : ℝ) : EReal) := by
  simp [cntN, Ideal.ofBits, Ideal.ieee]
  rw [← EReal.coe_mul]
  congr 1
  norm_num

/-- The graph count is the real 10000. -/
private theorem cntG_eq : cntG = ((10000 : ℝ) : EReal) := by
  simp [cntG, Ideal.ofBits, Ideal.ieee]
  rw [← EReal.coe_mul]
  congr 1
  norm_num

/-- The variance's guard is a positive real. -/
private theorem eps_eq : ∃ e : ℝ, 0 < e ∧ eps = (e : EReal) := by
  refine ⟨10995116 * (2 : ℝ) ^ (-40 : ℤ), by positivity, ?_⟩
  simp [eps, Ideal.ofBits, Ideal.ieee]

/-! ### Finite sums and differences of reals inside the extended reals -/

/-- The image of a finite sum of reals is the sum of the images. -/
private theorem coe_sum {ι : Type*} (S : Finset ι) (f : ι → ℝ) :
    ((∑ i ∈ S, f i : ℝ) : EReal) = ∑ i ∈ S, (f i : EReal) := by
  classical
  induction S using Finset.induction_on with
  | empty => simp
  | insert a s ha ih => rw [Finset.sum_insert ha, Finset.sum_insert ha, EReal.coe_add, ih]

/-- The difference of two real extended reals is real. -/
private theorem isReal_sub {x y : EReal} (hx : IsReal x) (hy : IsReal y) : IsReal (x - y) := by
  rw [sub_eq_add_neg]; exact isReal_add hx (isReal_neg hy)

/-- The inverse square root of a positive real is real. -/
private theorem isReal_rsqrt {r : ℝ} (hr : 0 < r) : IsReal (Ideal.rsqrt (r : EReal)) := by
  rw [Ideal.rsqrt_coe, if_neg (not_lt.mpr hr.le), if_neg hr.ne']
  exact isReal_coe _

/-! ### A column's mean and variance over a table of reals -/

section Column

variable {n : ℕ} (y : Fin n → Fin 128 → ℝ) {c : ℝ}

/-- The mean of a column of reals, the count a nonzero real: the column's sum times 1/c. -/
private theorem colMean_coe (hc : c ≠ 0) (q : Fin 128) :
    colMean (fun r q => (y r q : EReal)) (c : EReal) q = (((∑ r, y r q) * (1 / c) : ℝ) : EReal) := by
  unfold colMean
  rw [Ideal.div_coe hc, ← coe_sum, ← EReal.coe_mul]

/-- The variance of a column of reals, the count a nonzero real. -/
private theorem colVar_coe (hc : c ≠ 0) (q : Fin 128) :
    colVar (fun r q => (y r q : EReal)) (c : EReal) q
      = (((∑ r, (y r q - (∑ r, y r q) * (1 / c)) * (y r q - (∑ r, y r q) * (1 / c))) * (1 / c) : ℝ) : EReal) := by
  unfold colVar
  rw [colMean_coe y hc q, Ideal.div_coe hc]
  simp only [← EReal.coe_sub, ← EReal.coe_mul, ← coe_sum]

/-- The inverse deviation of a column of reals is real: the variance is at least zero and the guard is positive. -/
private theorem isReal_rsqrt_colVar (hc : 0 < c) (q : Fin 128) :
    IsReal (Ideal.rsqrt (colVar (fun r q => (y r q : EReal)) (c : EReal) q + eps)) := by
  obtain ⟨e, he, hE⟩ := eps_eq
  rw [colVar_coe y hc.ne' q, hE, ← EReal.coe_add]
  refine isReal_rsqrt (add_pos_of_nonneg_of_pos ?_ he)
  exact mul_nonneg (Finset.sum_nonneg fun r _ => mul_self_nonneg _) (by positivity)

end Column

/-- In the reals, over n rows with the count c equal to n: the mean of the squared distances from the mean is the mean
    of the squares minus the square of the mean. -/
private theorem var_identity {n : ℕ} (u : Fin n → ℝ) {c : ℝ} (hc : c ≠ 0) (hn : (n : ℝ) = c) :
    (∑ r, (u r - (∑ r, u r) * (1 / c)) * (u r - (∑ r, u r) * (1 / c))) * (1 / c)
      = (∑ r, u r * u r) * (1 / c) - ((∑ r, u r) * (1 / c)) * ((∑ r, u r) * (1 / c)) := by
  have h : ∀ m : ℝ, ∑ r, (u r - m) * (u r - m) = (∑ r, u r * u r) - 2 * m * (∑ r, u r) + n * (m * m) := by
    intro m
    have h1 : ∀ r, (u r - m) * (u r - m) = u r * u r - 2 * m * u r + m * m := fun r => by ring
    simp only [h1, Finset.sum_add_distrib, Finset.sum_sub_distrib, ← Finset.mul_sum, Finset.sum_const,
      Finset.card_univ, Fintype.card_fin, nsmul_eq_mul]
    ring
  rw [h, hn]
  field_simp
  ring

/-! ### The folded normalisation is the normalisation from the centred squares -/

/-- Batch normalisation of a table of reals, the count a positive real, gives reals. -/
private theorem isReal_bn {n : ℕ} (Y : Fin n → Fin 128 → EReal) (hY : ∀ r q, IsReal (Y r q)) {c : ℝ} (hc : 0 < c)
    (g b : SC.Idx → EReal) (hg : ∀ j, IsReal (g j)) (hb : ∀ j, IsReal (b j)) (r : Fin n) (q : Fin 128) :
    IsReal (bn Y (c : EReal) g b r q) := by
  choose y hy using hY
  obtain rfl : Y = fun r q => (y r q : EReal) := funext fun r => funext fun q => hy r q
  unfold bn
  refine isReal_add (isReal_mul (isReal_mul (isReal_sub (isReal_coe _) ?_) (isReal_rsqrt_colVar y hc q)) (hg _)) (hb _)
  rw [colMean_coe y hc.ne' q]
  exact isReal_coe _

/-- One entry: the value times the folded scale plus the folded shift is the normalised value. -/
private theorem affine_entry (U : Fin 500000 → Fin 128 → EReal) (g b : SC.Idx → EReal)
    (hU : ∀ r q, IsReal (U r q)) (hg : ∀ j, IsReal (g j)) (hb : ∀ j, IsReal (b j)) (r : Fin 500000) (k : Fin 128) :
    U r k * foldScale (colSum U k) (colSumSq U k) (g (ix1 k))
        + foldShift (colSum U k) (colSumSq U k) (g (ix1 k)) (b (ix1 k))
      = bn U cntN g b r k := by
  choose u hu using hU
  obtain rfl : U = fun r q => (u r q : EReal) := funext fun r => funext fun q => hu r q
  have hc : (500000 : ℝ) ≠ 0 := by norm_num
  -- the two variances agree
  have hvar : Ideal.div (colSumSq (fun r q => (u r q : EReal)) k) cntN
        - foldMean (colSum (fun r q => (u r q : EReal)) k) * foldMean (colSum (fun r q => (u r q : EReal)) k)
      = colVar (fun r q => (u r q : EReal)) cntN k := by
    rw [cntN_eq, colVar_coe u hc k, var_identity (fun r => u r k) hc (by norm_num)]
    unfold foldMean colSumSq colSum
    rw [cntN_eq, Ideal.div_coe hc, Ideal.div_coe hc]
    simp only [← EReal.coe_sub, ← EReal.coe_mul, ← coe_sum]
  have hmean : foldMean (colSum (fun r q => (u r q : EReal)) k) = colMean (fun r q => (u r q : EReal)) cntN k := rfl
  unfold foldScale foldShift foldInv bn
  rw [hvar, hmean]
  obtain ⟨i, hi⟩ : IsReal (Ideal.rsqrt (colVar (fun r q => (u r q : EReal)) cntN k + eps)) := by
    rw [cntN_eq]; exact isReal_rsqrt_colVar u (by norm_num) k
  obtain ⟨γ, hγ⟩ := hg (ix1 k)
  obtain ⟨β, hβ⟩ := hb (ix1 k)
  rw [hi, hγ, hβ, cntN_eq, colMean_coe u hc k]
  simp only [← EReal.coe_sub, ← EReal.coe_mul, ← EReal.coe_add]
  congr 1
  ring

theorem outAffine_eq_outBn (U : Fin 500000 → Fin 128 → EReal) (g b : SC.Idx → EReal) (W2 : SW.Idx → EReal) (b2 : SC.Idx → EReal)
    (hU : ∀ r q, IsReal (U r q)) (hg : ∀ j, IsReal (g j)) (hb : ∀ j, IsReal (b j)) :
    outAffine U g b W2 b2 = outBn U g b W2 b2 := by
  funext j
  unfold outAffine affineOut outBn arr2
  simp only [arr1_ix1]
  congr 1
  refine Finset.sum_congr rfl fun k _ => ?_
  have h := affine_entry U g b hU hg hb (j 0) k
  rw [← h]

theorem isReal_poolOut (P : SG.Idx → EReal) (Wl : SW.Idx → EReal) (g b : SC.Idx → EReal)
    (hP : ∀ j, IsReal (P j)) (hW : ∀ j, IsReal (Wl j)) (hg : ∀ j, IsReal (g j)) (hb : ∀ j, IsReal (b j)) :
    ∀ j, IsReal (poolOut P Wl g b j) := by
  intro j
  unfold poolOut arr2
  rw [cntG_eq]
  refine isReal_max_zero (isReal_bn (lin P Wl) ?_ (by norm_num) g b hg hb _ _)
  intro r q
  exact isReal_sum_univ _ fun k => isReal_mul (hP _) (hW _)

theorem isReal_hidden (x Gt : SN.Idx → EReal) (W1 : SW.Idx → EReal) (b1 : SC.Idx → EReal)
    (hx : ∀ j, IsReal (x j)) (hG : ∀ j, IsReal (Gt j)) (hW : ∀ j, IsReal (W1 j)) (hb : ∀ j, IsReal (b1 j)) :
    ∀ r q, IsReal (hidden x Gt W1 b1 r q) := by
  intro r q
  unfold hidden
  exact isReal_add (isReal_sum_univ _ fun k => isReal_mul (isReal_add (hx _) (hG _)) (hW _)) (hb _)

end Cert.PoolNorm

end
-- ==== Proof.Finite.lean ====
/-
  The node table after the first linear layer is finite when the arguments are: the per-graph sums are finite sums of
  finite rows, the graph table's normalisation divides by a deviation that is bounded away from zero, a node reads
  a row of that table, and the linear layer sums finitely many finite products.
-/
import proofs.«431360_j69028714381387_1_alg».proof.Proof.KernelValue
import proofs.«431360_j69028714381387_1_alg».proof.Proof.Laws

noncomputable section

namespace Cert.KernelIdeal.Result

open Cert.KernelIdeal Cert.KernelIdeal.Gen Idealize.ShloMosaic Idealize.ShloMosaic.TcCoe Idealize.SL.Sem
open Idealize.ShloMosaic.ValueIdx Cert.PoolNorm
open Idealize.ShloMosaic.Pipeline (Dat Cfg Window)
open Cert.KernelIdeal.HostRead Cert.LibERealSage

variable (m : (ℓ : Loc nD τ sig) → Buf (Elt Ideal) ℓ)

theorem isReal_pooled (x : FVec Ideal S500000x128 .f32) (batch : IVec S500000 32) (hx : ∀ i, IsReal (x i)) :
    ∀ i, IsReal (pooled x batch i) := by
  unfold pooled
  refine isReal_scatterAdd _ _ _ _ (fun i => ?_) hx
  show IsReal (Ideal.ofBits .f32 0x00000000#32)
  rw [Ideal.ofBits_zero_f32]; exact isReal_zero

theorem isReal_taken (T : FVec Ideal S10000x128 .f32) (batch : IVec S500000 32) (hT : ∀ i, IsReal (T i)) :
    ∀ i, IsReal (taken T batch i) := by
  unfold taken
  exact isReal_gather _ _ _ hT

theorem hid_real (c : Dev nD)
    (h0 : ∀ i, IsReal ((m ((c : Thread nD τ).loc main_arg0)) i)) (h4 : ∀ i, IsReal ((m ((c : Thread nD τ).loc main_arg4)) i)) (h5 : ∀ i, IsReal ((m ((c : Thread nD τ).loc main_arg5)) i))
    (h6 : ∀ i, IsReal ((m ((c : Thread nD τ).loc main_arg6)) i)) (h7 : ∀ i, IsReal ((m ((c : Thread nD τ).loc main_arg7)) i)) (h8 : ∀ i, IsReal ((m ((c : Thread nD τ).loc main_arg8)) i)) :
    ∀ r q, IsReal (hid m c r q) :=
  isReal_hidden _ _ _ _ h0
    (isReal_taken _ _ (isReal_poolOut _ _ _ _ (isReal_pooled _ _ h0) h4 h5 h6)) h7 h8

end Cert.KernelIdeal.Result

end
-- ==== Proof.RefValue.lean ====
/-
  The reference program's result, as the specification's function of the argument arrays: per-graph sums, the graph
  table's linear layer, normalisation and rectifier, each node's graph row added to its features, and the node table's
  linear layer, normalisation from the centred squares, rectifier and last linear layer.
-/
import proofs.«431360_j69028714381387_1_alg».proof.Proof.Gen.ReferenceIdeal.Read
import proofs.«431360_j69028714381387_1_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.PoolNorm

/-- The per-graph sums of the node features: each node's row added into the row its label names. -/
def pooled (x : FVec Ideal S500000x128 .f32) (batch : IVec S500000 32) : FVec Ideal S10000x128 .f32 :=
  Host.scatterAdd (F := Ideal) scatter_S10000x128_S500000x1_S500000x128_1_0_0_1
    (broadcastInDim S10000x128 ![] bcast_S_S10000x128 (constant (F := Ideal) S_ .f32 0x00000000#32))
    (broadcastInDim S500000x1 ![0] bcast_S500000_S500000x1_0 batch) x

/-- The row each node reads: its label, a negative one counted from the end, laid as a column. -/
def rowIdx (batch : IVec S500000 32) : IVec S500000x1 32 :=
  broadcastInDim S500000x1 ![0] bcast_S500000_S500000x1_0
    (select (cmpi .slt batch (broadcastInDim S500000 ![] bcast_S_S500000 (constantI S_ 32 0#32)))
      (addi batch (broadcastInDim S500000 ![] bcast_S_S500000 (constantI S_ 32 10000#32))) batch)

/-- The rows of a graph table the nodes read. -/
def taken (T : FVec Ideal S10000x128 .f32) (batch : IVec S500000 32) : FVec Ideal S500000x128 .f32 :=
  Host.gather gather_S10000x128_S500000x1_S500000x128_1_0_n_n_0_1_1128 T (rowIdx batch)

/-! ### Indices: an index of a table is its row and its column -/

/-- A rank-2 index with the row r and the column q is the pair (r, q). -/
private theorem mk2 {a b : ℕ} (r : Fin a) (q : Fin b) (f : (⟨2, ![a, b]⟩ : Shape).Idx)
    (h0 : (f 0).val = r.val) (h1 : (f 1).val = q.val) : f = ix2 r q :=
  funext fun d => Fin.ext (by match d with | ⟨0, _⟩ => exact h0 | ⟨1, _⟩ => exact h1)

/-- A rank-1 index with the entry q is q. -/
private theorem mk1 {a : ℕ} (q : Fin a) (f : (⟨1, ![a]⟩ : Shape).Idx) (h0 : (f 0).val = q.val) : f = ix1 q :=
  funext fun d => Fin.ext (by match d with | ⟨0, _⟩ => exact h0)

/-! ### The graph table: linear layer, normalisation over the graphs, rectifier -/

section graph

variable (x0 : FVec Ideal S500000x128 .f32) (x3 : IVec S500000 32) (x4 : FVec Ideal S128x128 .f32)
  (x5 x6 : FVec Ideal S128 .f32)

/-- The scatter stage is the per-graph sums. -/
private theorem v2_eq : Read.val_main_v2 (F := Ideal) x0 x3 = pooled x0 x3 := rfl

/-- The graph table against the first matrix. -/
private theorem v3_at (r : Fin 10000) (q : Fin 128) :
    Read.val_main_v3 (F := Ideal) x0 x3 x4 (ix2 r q) = lin (pooled x0 x3) x4 r q := by
  rw [Read.val_main_v3_apply, v2_eq]
  unfold lin
  refine Finset.sum_congr rfl fun k _ => ?_
  rw [mk2 r k (Read.lidx_main_v3 (ix2 r q) k) rfl rfl, mk2 k q (Read.ridx_main_v3 (ix2 r q) k) rfl rfl]

/-- Its column sums. -/
private theorem v4_at (q : Fin 128) :
    Read.val_main_v4 (F := Ideal) x0 x3 x4 (ix1 q) = ∑ r : Fin 10000, lin (pooled x0 x3) x4 r q := by
  rw [Read.val_main_v4_apply, Read.val_main_cst_0_apply, Ideal.ofBits_def, Ideal.ofBits_zero_f32, zero_add]
  refine Finset.sum_congr rfl fun k _ => ?_
  rw [mk2 k q (Read.idx_main_v4 (ix1 q) k) rfl rfl, v3_at]

/-- Its column means, laid as one row. -/
private theorem v7_at (z : Fin 1) (q : Fin 128) :
    Read.val_main_v7 (F := Ideal) x0 x3 x4 (ix2 z q) = colMean (lin (pooled x0 x3) x4) cntG q := by
  rw [Read.val_main_v7_apply, Read.val_main_v5_apply, mk1 q (Read.idx_main_v5 (ix2 z q)) rfl, v4_at,
    Read.val_main_v6_apply, Read.val_main_cst_1_apply]
  rfl

/-- An entry less its column's mean (the stage the variance squares). -/
private theorem v9_at (r : Fin 10000) (q : Fin 128) :
    Read.val_main_v9 (F := Ideal) x0 x3 x4 (ix2 r q)
      = lin (pooled x0 x3) x4 r q - colMean (lin (pooled x0 x3) x4) cntG q := by
  rw [Read.val_main_v9_apply, v3_at, Read.val_main_v8_apply,
    mk2 (0 : Fin 1) q (Read.idx_main_v8 (ix2 r q)) rfl rfl, v7_at]
  rfl

/-- An entry less its column's mean (the stage the normalisation scales). -/
private theorem v16_at (r : Fin 10000) (q : Fin 128) :
    Read.val_main_v16 (F := Ideal) x0 x3 x4 (ix2 r q)
      = lin (pooled x0 x3) x4 r q - colMean (lin (pooled x0 x3) x4) cntG q := by
  rw [Read.val_main_v16_apply, v3_at, Read.val_main_v15_apply,
    mk2 (0 : Fin 1) q (Read.idx_main_v15 (ix2 r q)) rfl rfl, v7_at]
  rfl

/-- The column sums of the squared distances from the mean. -/
private theorem v11_at (q : Fin 128) :
    Read.val_main_v11 (F := Ideal) x0 x3 x4 (ix1 q)
      = ∑ r : Fin 10000, (lin (pooled x0 x3) x4 r q - colMean (lin (pooled x0 x3) x4) cntG q)
          * (lin (pooled x0 x3) x4 r q - colMean (lin (pooled x0 x3) x4) cntG q) := by
  rw [Read.val_main_v11_apply, Read.val_main_cst_2_apply, Ideal.ofBits_def, Ideal.ofBits_zero_f32, zero_add]
  refine Finset.sum_congr rfl fun k _ => ?_
  rw [mk2 k q (Read.idx_main_v11 (ix1 q) k) rfl rfl, Read.val_main_v10_apply, v9_at]
  rfl

/-- The inverse deviation of a column, laid as one row. -/
private theorem v19_at (z : Fin 1) (q : Fin 128) :
    Read.val_main_v19 (F := Ideal) x0 x3 x4 (ix2 z q)
      = Ideal.rsqrt (colVar (lin (pooled x0 x3) x4) cntG q + eps) := by
  rw [Read.val_main_v19_apply, Read.val_main_v18_apply, Read.val_main_v14_apply, Read.val_main_v12_apply,
    mk1 q (Read.idx_main_v12 (ix2 z q)) rfl, v11_at, Read.val_main_v13_apply, Read.val_main_cst_3_apply,
    Read.val_main_v17_apply, Read.val_main_cst_4_apply]
  rfl

/-- The normalised graph table. -/
private theorem v27_at (r : Fin 10000) (q : Fin 128) :
    Read.val_main_v27 (F := Ideal) x0 x3 x4 x5 x6 (ix2 r q) = bn (lin (pooled x0 x3) x4) cntG x5 x6 r q := by
  rw [Read.val_main_v27_apply, Read.val_main_v24_apply, Read.val_main_v21_apply, v16_at,
    Read.val_main_v20_apply, mk2 (0 : Fin 1) q (Read.idx_main_v20 (ix2 r q)) rfl rfl, v19_at,
    Read.val_main_v23_apply, mk2 (0 : Fin 1) q (Read.idx_main_v23 (ix2 r q)) rfl rfl,
    Read.val_main_v22_apply, mk1 q (Read.idx_main_v22 (ix2 (0 : Fin 1) q)) rfl,
    Read.val_main_v26_apply, mk2 (0 : Fin 1) q (Read.idx_main_v26 (ix2 r q)) rfl rfl,
    Read.val_main_v25_apply, mk1 q (Read.idx_main_v25 (ix2 (0 : Fin 1) q)) rfl]
  rfl

/-- The graph table after its rectifier is the specification's. -/
private theorem v28_eq :
    Read.val_main_v28 (F := Ideal) x0 x3 x4 x5 x6 = poolOut (pooled x0 x3) x4 x5 x6 := by
  funext j
  obtain ⟨r, q, rfl⟩ : ∃ (r : Fin 10000) (q : Fin 128), j = ix2 r q := ⟨j 0, j 1, eq_ix2 j⟩
  rw [Read.val_main_v28_apply, v27_at, Read.val_main_call0_v0_apply, Read.val_main_call0_cst_apply,
    Ideal.ofBits_def, Ideal.ofBits_zero_f32]
  rfl

end graph

/-! ### The node table: each node's graph row added, and the first linear layer with its bias -/

section hiddenLayer

variable (x0 : FVec Ideal S500000x128 .f32) (x3 : IVec S500000 32) (x4 : FVec Ideal S128x128 .f32)
  (x5 x6 : FVec Ideal S128 .f32) (x7 : FVec Ideal S128x128 .f32) (x8 : FVec Ideal S128 .f32)

/-- The index column the gather reads by is the nodes' rows. -/
private theorem v34_eq : Read.val_main_v34 (F := Ideal) x3 = rowIdx x3 := rfl

/-- The gather stage is the rows of the normalised graph table the nodes read. -/
private theorem v35_eq :
    Read.val_main_v35 (F := Ideal) x0 x3 x4 x5 x6 = taken (poolOut (pooled x0 x3) x4 x5 x6) x3 := by
  unfold Read.val_main_v35 taken
  rw [v34_eq, v28_eq]

/-- The node table after its first linear layer and bias is the specification's. -/
private theorem v40_at (r : Fin 500000) (q : Fin 128) :
    Read.val_main_v40 (F := Ideal) x0 x3 x4 x5 x6 x7 x8 (ix2 r q)
      = hidden x0 (taken (poolOut (pooled x0 x3) x4 x5 x6) x3) x7 x8 r q := by
  rw [Read.val_main_v40_apply, Read.val_main_v37_apply, Read.val_main_v39_apply,
    mk2 (0 : Fin 1) q (Read.idx_main_v39 (ix2 r q)) rfl rfl, Read.val_main_v38_apply,
    mk1 q (Read.idx_main_v38 (ix2 (0 : Fin 1) q)) rfl]
  unfold Cert.PoolNorm.hidden
  refine congrArg (· + x8 (ix1 q)) (Finset.sum_congr rfl fun k _ => ?_)
  rw [mk2 r k (Read.lidx_main_v37 (ix2 r q) k) rfl rfl, mk2 k q (Read.ridx_main_v37 (ix2 r q) k) rfl rfl,
    Read.val_main_v36_apply, v35_eq]
  rfl

end hiddenLayer

/-! ### The node table: normalisation over the nodes, rectifier, last linear layer with its bias -/

section nodes

variable (x0 : FVec Ideal S500000x128 .f32) (x3 : IVec S500000 32) (x4 : FVec Ideal S128x128 .f32)
  (x5 x6 : FVec Ideal S128 .f32) (x7 : FVec Ideal S128x128 .f32) (x8 x9 x10 : FVec Ideal S128 .f32)
  (x11 : FVec Ideal S128x128 .f32) (x12 : FVec Ideal S128 .f32)
  (U : Fin 500000 → Fin 128 → EReal)
  (hU : ∀ (r : Fin 500000) (q : Fin 128), Read.val_main_v40 (F := Ideal) x0 x3 x4 x5 x6 x7 x8 (ix2 r q) = U r q)

include hU

/-- The column sums of the node table. -/
private theorem v41_at (q : Fin 128) :
    Read.val_main_v41 (F := Ideal) x0 x3 x4 x5 x6 x7 x8 (ix1 q) = ∑ r : Fin 500000, U r q := by
  rw [Read.val_main_v41_apply, Read.val_main_cst_6_apply, Ideal.ofBits_def, Ideal.ofBits_zero_f32, zero_add]
  refine Finset.sum_congr rfl fun k _ => ?_
  rw [mk2 k q (Read.idx_main_v41 (ix1 q) k) rfl rfl, hU]

/-- Its column means, laid as one row. -/
private theorem v44_at (z : Fin 1) (q : Fin 128) :
    Read.val_main_v44 (F := Ideal) x0 x3 x4 x5 x6 x7 x8 (ix2 z q) = colMean U cntN q := by
  rw [Read.val_main_v44_apply, Read.val_main_v42_apply, mk1 q (Read.idx_main_v42 (ix2 z q)) rfl,
    v41_at (hU := hU), Read.val_main_v43_apply, Read.val_main_cst_7_apply]
  rfl

/-- An entry less its column's mean (the stage the variance squares). -/
private theorem v46_at (r : Fin 500000) (q : Fin 128) :
    Read.val_main_v46 (F := Ideal) x0 x3 x4 x5 x6 x7 x8 (ix2 r q) = U r q - colMean U cntN q := by
  rw [Read.val_main_v46_apply, hU, Read.val_main_v45_apply,
    mk2 (0 : Fin 1) q (Read.idx_main_v45 (ix2 r q)) rfl rfl, v44_at (hU := hU)]
  rfl

/-- An entry less its column's mean (the stage the normalisation scales). -/
private theorem v53_at (r : Fin 500000) (q : Fin 128) :
    Read.val_main_v53 (F := Ideal) x0 x3 x4 x5 x6 x7 x8 (ix2 r q) = U r q - colMean U cntN q := by
  rw [Read.val_main_v53_apply, hU, Read.val_main_v52_apply,
    mk2 (0 : Fin 1) q (Read.idx_main_v52 (ix2 r q)) rfl rfl, v44_at (hU := hU)]
  rfl

/-- The column sums of the squared distances from the mean. -/
private theorem v48_at (q : Fin 128) :
    Read.val_main_v48 (F := Ideal) x0 x3 x4 x5 x6 x7 x8 (ix1 q)
      = ∑ r : Fin 500000, (U r q - colMean U cntN q) * (U r q - colMean U cntN q) := by
  rw [Read.val_main_v48_apply, Read.val_main_cst_8_apply, Ideal.ofBits_def, Ideal.ofBits_zero_f32, zero_add]
  refine Finset.sum_congr rfl fun k _ => ?_
  rw [mk2 k q (Read.idx_main_v48 (ix1 q) k) rfl rfl, Read.val_main_v47_apply, v46_at (hU := hU)]
  rfl

/-- The inverse deviation of a column, laid as one row. -/
private theorem v56_at (z : Fin 1) (q : Fin 128) :
    Read.val_main_v56 (F := Ideal) x0 x3 x4 x5 x6 x7 x8 (ix2 z q) = Ideal.rsqrt (colVar U cntN q + eps) := by
  rw [Read.val_main_v56_apply, Read.val_main_v55_apply, Read.val_main_v51_apply, Read.val_main_v49_apply,
    mk1 q (Read.idx_main_v49 (ix2 z q)) rfl, v48_at (hU := hU), Read.val_main_v50_apply,
    Read.val_main_cst_9_apply, Read.val_main_v54_apply, Read.val_main_cst_10_apply]
  rfl

/-- The normalised node table. -/
private theorem v64_at (r : Fin 500000) (q : Fin 128) :
    Read.val_main_v64 (F := Ideal) x0 x3 x4 x5 x6 x7 x8 x9 x10 (ix2 r q) = bn U cntN x9 x10 r q := by
  rw [Read.val_main_v64_apply, Read.val_main_v61_apply, Read.val_main_v58_apply, v53_at (hU := hU),
    Read.val_main_v57_apply, mk2 (0 : Fin 1) q (Read.idx_main_v57 (ix2 r q)) rfl rfl, v56_at (hU := hU),
    Read.val_main_v60_apply, mk2 (0 : Fin 1) q (Read.idx_main_v60 (ix2 r q)) rfl rfl,
    Read.val_main_v59_apply, mk1 q (Read.idx_main_v59 (ix2 (0 : Fin 1) q)) rfl,
    Read.val_main_v63_apply, mk2 (0 : Fin 1) q (Read.idx_main_v63 (ix2 r q)) rfl rfl,
    Read.val_main_v62_apply, mk1 q (Read.idx_main_v62 (ix2 (0 : Fin 1) q)) rfl]
  rfl

/-- The rectified normalised node table. -/
private theorem v65_at (r : Fin 500000) (q : Fin 128) :
    Read.val_main_v65 (F := Ideal) x0 x3 x4 x5 x6 x7 x8 x9 x10 (ix2 r q) = max (bn U cntN x9 x10 r q) 0 := by
  rw [Read.val_main_v65_apply, v64_at (hU := hU), Read.val_main_call1_v0_apply, Read.val_main_call1_cst_apply,
    Ideal.ofBits_def, Ideal.ofBits_zero_f32]
  rfl

/-- The last stage is the specification's result over the node table U. -/
private theorem v69_at (r : Fin 500000) (q : Fin 128) :
    Read.val_main_v69 (F := Ideal) x0 x3 x4 x5 x6 x7 x8 x9 x10 x11 x12 (ix2 r q)
      = outBn U x9 x10 x11 x12 (ix2 r q) := by
  rw [Read.val_main_v69_apply, Read.val_main_v66_apply, Read.val_main_v68_apply,
    mk2 (0 : Fin 1) q (Read.idx_main_v68 (ix2 r q)) rfl rfl, Read.val_main_v67_apply,
    mk1 q (Read.idx_main_v67 (ix2 (0 : Fin 1) q)) rfl]
  unfold outBn
  rw [arr2_ix2]
  refine congrArg (· + x12 (ix1 q)) (Finset.sum_congr rfl fun k _ => ?_)
  rw [mk2 r k (Read.lidx_main_v66 (ix2 r q) k) rfl rfl, mk2 k q (Read.ridx_main_v66 (ix2 r q) k) rfl rfl,
    v65_at (hU := hU)]

end nodes

theorem res_eq (m : (ℓ : Loc nD τ sig) → Buf (Elt Ideal) ℓ) (c : Dev nD) :
    Value.res_out0 (F := Ideal) m c
      = outBn (hidden (m ((c.tc : Thread nD τ).loc main_arg0))
          (taken (poolOut (pooled (m ((c.tc : Thread nD τ).loc main_arg0)) (m ((c.tc : Thread nD τ).loc main_arg3)))
            (m ((c.tc : Thread nD τ).loc main_arg4)) (m ((c.tc : Thread nD τ).loc main_arg5)) (m ((c.tc : Thread nD τ).loc main_arg6)))
            (m ((c.tc : Thread nD τ).loc main_arg3)))
          (m ((c.tc : Thread nD τ).loc main_arg7)) (m ((c.tc : Thread nD τ).loc main_arg8)))
        (m ((c.tc : Thread nD τ).loc main_arg9)) (m ((c.tc : Thread nD τ).loc main_arg10))
        (m ((c.tc : Thread nD τ).loc main_arg11)) (m ((c.tc : Thread nD τ).loc main_arg12)) := by
  refine (Read.val_main_v69_eq (F := Ideal) m c).trans ?_
  refine funext fun j => ?_
  obtain ⟨r, q, rfl⟩ : ∃ (r : Fin 500000) (q : Fin 128), j = ix2 r q := ⟨j 0, j 1, eq_ix2 j⟩
  exact v69_at _ _ _ _ _ _ _ _ _ _ _ _ (fun r q => v40_at _ _ _ _ _ _ _ r q) r q

end Cert.ReferenceIdeal.RefValue

end
-- ==== Proof.PreFacts.lean ====
/-
  What the precondition says, entry by entry: every entry of every float argument is a real number, and every node's
  label is a row of the graph table, between 0 and 9999.
-/
import proofs.«431360_j69028714381387_1_alg».proof.Proof.Gen.Pre_finite_inputs
import proofs.«431360_j69028714381387_1_alg».proof.Proof.LibERealSage
import Idealize.ShloMosaic.PureOps.Ideal
import Idealize.ShloMosaic.Lib.ValueIdx
import Idealize.ShloMosaic.Lib.ReduceAll

noncomputable section

namespace Cert.Pre_finite_inputs.Decode

open Cert.Pre_finite_inputs Idealize.ShloMosaic Idealize.ShloMosaic.ValueIdx Cert.LibERealSage

/-- A scalar has one index. -/
private instance : Subsingleton S_.Idx := ⟨fun a b => funext fun d => d.elim0⟩

/-- The pattern 0x7F800000 denotes plus infinity. -/
private theorem ofBits_inf : Ideal.ofBits .f32 0x7F800000#32 = (⊤ : EReal) := by
  simp [Ideal.ofBits, Ideal.ieee]

/-- An extended real whose absolute value max x (-x) lies below plus infinity is a real number. -/
private theorem isReal_of_abs_lt_top (x : EReal) (h : max x (-x) < ⊤) : IsReal x := by
  induction x using EReal.rec with
  | bot => simp at h
  | coe r => exact ⟨r, rfl⟩
  | top => simp at h

/-- all(|x| < +inf) = 1 over any shape: every entry of x is real. -/
private theorem isReal_of_all {S : Shape} {axes : List (Fin S.rank)} (x : FVec Ideal S .f32)
    (hb : S_.BroadcastsInDim S (![] : Fin 0 → Fin S.rank)) (hr : S.ReducesTo axes S_) (h0 : 0 < S_.numel)
    (e : Host.reduce IntOp.andi (cmpf .olt (Host.absf x) (broadcastInDim S ![] hb (constant S_ .f32 0x7F800000#32)))
      (constantI S_ 1 1#1) hr h0 ix0 = 1#1) :
    ∀ i, IsReal (x i) := by
  intro i
  have hi := Host.reduce_andi_all _ _ hr h0 ix0 e i
  -- at index i the compared words are |x i| = max (x i) (-(x i)) and the constant
  have hi' : Ideal.cmp .olt (max (x i) (-(x i))) (Ideal.ofBits .f32 0x7F800000#32) = 1#1 := hi
  rw [ofBits_inf] at hi'
  apply isReal_of_abs_lt_top
  revert hi'
  unfold Ideal.cmp
  by_cases hlt : max (x i) (-(x i)) < ⊤
  · exact fun _ => hlt
  · simp [hlt]

/-- The conjunction of two one-bit scalars is 1 exactly when both are. -/
private theorem andi_ix0 (a b : IVec S_ 1) : andi a b ix0 = 1#1 ↔ a ix0 = 1#1 ∧ b ix0 = 1#1 := IntOp.andi_eq_one

theorem of_pre [Cert.Pre_finite_inputs.Facts]
    (x0 : FVec Ideal S500000x128 .f32) (x1 : IVec S2x1000 32) (x2 : FVec Ideal S1000x128 .f32) (x3 : IVec S500000 32)
    (x4 : FVec Ideal S128x128 .f32) (x5 x6 : FVec Ideal S128 .f32) (x7 : FVec Ideal S128x128 .f32) (x8 x9 x10 : FVec Ideal S128 .f32)
    (x11 : FVec Ideal S128x128 .f32) (x12 : FVec Ideal S128 .f32)
    (h : fn (F := Ideal) x0 x1 x2 x3 x4 x5 x6 x7 x8 x9 x10 x11 x12 = fun _ => 1#1) :
    (∀ i, IsReal (x0 i)) ∧ (∀ i, IsReal (x4 i)) ∧ (∀ i, IsReal (x5 i)) ∧ (∀ i, IsReal (x6 i)) ∧ (∀ i, IsReal (x7 i))
      ∧ (∀ i, IsReal (x8 i)) ∧ (∀ i, IsReal (x9 i)) ∧ (∀ i, IsReal (x10 i)) ∧ (∀ i, IsReal (x11 i)) ∧ (∀ i, IsReal (x12 i))
      ∧ (∀ i : Fin 500000, 0 ≤ (x3 (ix1 i)).toInt ∧ (x3 (ix1 i)).toInt < 10000) := by
  -- the predicate is a conjunction of twelve reductions, one per argument it constrains
  have e := congrFun h ix0
  dsimp only [fn, fn_part1, fn_part2, fn_part3] at e
  simp only [andi_ix0] at e
  obtain ⟨⟨⟨⟨⟨⟨⟨⟨⟨⟨⟨e0, -⟩, e4⟩, e5⟩, e6⟩, e7⟩, e8⟩, e9⟩, e10⟩, e11⟩, e12⟩, e3⟩ := e
  refine ⟨isReal_of_all x0 _ _ _ e0, isReal_of_all x4 _ _ _ e4, isReal_of_all x5 _ _ _ e5, isReal_of_all x6 _ _ _ e6,
    isReal_of_all x7 _ _ _ e7, isReal_of_all x8 _ _ _ e8, isReal_of_all x9 _ _ _ e9, isReal_of_all x10 _ _ _ e10,
    isReal_of_all x11 _ _ _ e11, isReal_of_all x12 _ _ _ e12, ?_⟩
  -- the labels: at each node, (label ≥ 0) and (label < 10000), both read signed
  intro k
  have hk := Host.reduce_andi_all _ _ _ _ ix0 e3 (ix1 k)
  have hk' : IntOp.andi (IntOp.cmpi .sge (x3 (ix1 k)) 0#32) (IntOp.cmpi .slt (x3 (ix1 k)) 10000#32) = 1#1 := hk
  obtain ⟨h1, h2⟩ := IntOp.andi_eq_one.1 hk'
  rw [IntOp.cmpi_sge] at h1
  rw [IntOp.cmpi_slt] at h2
  have z : (0#32 : BitVec 32).toInt = 0 := by decide
  have t : (10000#32 : BitVec 32).toInt = 10000 := by decide
  rw [z] at h1
  rw [t] at h2
  exact ⟨h1, h2⟩

end Cert.Pre_finite_inputs.Decode

end
-- ==== Proof.lean ====
/-
  The certificate's claim. A graph layer: the node features are summed per graph, the graph table goes through a linear
  layer, a batch normalisation over the graphs and a rectifier, each node adds its graph's row to its features, and the
  node table goes through a linear layer, a batch normalisation over the nodes, a rectifier and a last linear layer.

  The kernel's program computes the node normalisation from the column sums of the values and of their squares, folded
  into one scale and one shift per channel; the reference computes it from the centred squares. On finite values the two
  agree: the mean of the squared distances from the mean is the mean of the squares minus the square of the mean, and
  u · (g · i) + (b − μ · i · g) = (u − μ) · i · g + b. Every value met is finite because the arguments are, the deviations
  being bounded away from zero by the guard added to the variance; and under the precondition every node's label names
  a row of the graph table, so both programs read the same row (outside that range the kernel's program fills the row with
  a filler where the reference reads the nearest row).
-/
import proofs.«431360_j69028714381387_1_alg».proof.Defs
import proofs.«431360_j69028714381387_1_alg».proof.Proof.Gen.Kernel
import proofs.«431360_j69028714381387_1_alg».proof.Proof.Gen.Kernel.Skeleton
import proofs.«431360_j69028714381387_1_alg».proof.Proof.Gen.Kernel.Launch
import proofs.«431360_j69028714381387_1_alg».proof.Proof.Gen.Kernel.Points
import proofs.«431360_j69028714381387_1_alg».proof.Proof.Gen.Kernel.Frame
import proofs.«431360_j69028714381387_1_alg».proof.Proof.Gen.KernelIdeal
import proofs.«431360_j69028714381387_1_alg».proof.Proof.Gen.KernelIdeal.Skeleton
import proofs.«431360_j69028714381387_1_alg».proof.Proof.Gen.KernelIdeal.Launch
import proofs.«431360_j69028714381387_1_alg».proof.Proof.Gen.KernelIdeal.Points
import proofs.«431360_j69028714381387_1_alg».proof.Proof.Gen.KernelIdeal.Frame
import proofs.«431360_j69028714381387_1_alg».proof.Proof.Gen.ReferenceIdeal
import proofs.«431360_j69028714381387_1_alg».proof.Proof.Gen.Pre_finite_inputs
import proofs.«431360_j69028714381387_1_alg».proof.Proof.Gen.ReferenceIdeal.Run
import proofs.«431360_j69028714381387_1_alg».proof.Proof.Gen.ReferenceIdeal.Read
import proofs.«431360_j69028714381387_1_alg».proof.Proof.KernelRun
import proofs.«431360_j69028714381387_1_alg».proof.Proof.Finite
import proofs.«431360_j69028714381387_1_alg».proof.Proof.RefValue
import proofs.«431360_j69028714381387_1_alg».proof.Proof.PreFacts
import Idealize.ShloMosaic.Adequacy
import Idealize.ShloMosaic.Init

set_option maxRecDepth 16384

noncomputable section

namespace Cert.Proof

open Idealize.ShloMosaic Idealize.SL.Sem Idealize.ShloMosaic.ValueIdx Cert.PoolNorm Cert.LibERealSage

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result, under the precondition, in the form the reference computes it. -/
theorem kernel_result (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    (Cert.KernelIdeal.Gen.W6 m ρ c (Proc.devRef .tc Cert.KernelIdeal.main_v21) : SN.Idx → EReal)
      = outBn (Cert.KernelIdeal.Result.hid m c) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
          (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  obtain ⟨h0, h4, h5, h6, h7, h8, h9, h10, _, _, hr⟩ :=
    Cert.Pre_finite_inputs.Decode.of_pre _ _ _ _ _ _ _ _ _ _ _ _ _ (hpre c)
  exact (Cert.KernelIdeal.Result.result_eq m ρ c hr).trans
    (outAffine_eq_outBn _ _ _ _ _ (Cert.KernelIdeal.Result.hid_real m c h0 h4 h5 h6 h7 h8) h9 h10)

theorem algebraic : Cert.algebraic_KernelIdeal_ReferenceIdeal := by
  intro m ρ m' ρ' hpre hagree
  refine ⟨fun c => outBn (Cert.KernelIdeal.Result.hid m c) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (kernel_result m ρ hpre c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.RefValue.res_eq m' c).trans ?_
    obtain ⟨e0, _, _, e3, e4, e5, e6, e7, e8, e9, e10, e11, e12⟩ := hagree c
    rw [e0, e3, e4, e5, e6, e7, e8, e9, e10, e11, e12]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
